-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1x1x2048x2048 : Shape := ⟨4, ![1, 1, 2048, 2048]⟩
abbrev S64x64 : Shape := ⟨2, ![64, 64]⟩
abbrev S64 : Shape := ⟨1, ![64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S2x2048x1024 .f32) (main_arg1 : FVec F S2x2048x1024 .f32) (main_arg2 : FVec F S2x2048x1024 .f32) (main_arg3 : IVec S1x1x2048x2048 32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S2x2048x1024 : Shape := ⟨3, ![2, 2048, 1024]⟩
abbrev S1x1x2048x2048 : Shape := ⟨4, ![1, 1, 2048, 2048]⟩
abbrev S64x64 : Shape := ⟨2, ![64, 64]⟩
abbrev S64 : Shape := ⟨1, ![64]⟩
abbrev S2048x2048 : Shape := ⟨2, ![2048, 2048]⟩
abbrev S8x8 : Shape := ⟨2, ![8, 8]⟩
abbrev S_ : Shape := ⟨0, ![]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x512x512 : Shape := ⟨3, ![1, 512, 512]⟩
abbrev S1x2048x512 : Shape := ⟨3, ![1, 2048, 512]⟩
abbrev S512x2048 : Shape := ⟨2, ![512, 2048]⟩
abbrev S2048x512 : Shape := ⟨2, ![2048, 512]⟩
abbrev S512x64 : Shape := ⟨2, ![512, 64]⟩
abbrev S2048x64 : Shape := ⟨2, ![2048, 64]⟩
abbrev S64x2048 : Shape := ⟨2, ![64, 2048]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 52
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1x2048x2048, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S2048x2048, .i32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S64x64, .f32⟩
  | .hbm, ⟨19, _⟩ => ⟨S8x1x8x1, .f32⟩
  | .hbm, ⟨20, _⟩ => ⟨S1x64x1x64, .f32⟩
  | .hbm, ⟨21, _⟩ => ⟨S8x64x8x64, .f32⟩
  | .hbm, ⟨22, _⟩ => ⟨S8x64x8x64, .f32⟩
  | .hbm, ⟨23, _⟩ => ⟨S8x64x8x64, .f32⟩
  | .hbm, ⟨24, _⟩ => ⟨S512x512, .f32⟩
  | .hbm, ⟨25, _⟩ => ⟨S64x64, .f32⟩
  | .hbm, ⟨26, _⟩ => ⟨S8x1x8x1, .f32⟩
  | .hbm, ⟨27, _⟩ => ⟨S1x64x1x64, .f32⟩
  | .hbm, ⟨28, _⟩ => ⟨S8x64x8x64, .f32⟩
  | .hbm, ⟨29, _⟩ => ⟨S8x64x8x64, .f32⟩
  | .hbm, ⟨30, _⟩ => ⟨S8x64x8x64, .f32⟩
  | .hbm, ⟨31, _⟩ => ⟨S512x512, .f32⟩
  | .hbm, ⟨32, _⟩ => ⟨S64x64, .f32⟩
  | .hbm, ⟨33, _⟩ => ⟨S8x1x8x1, .f32⟩
  | .hbm, ⟨34, _⟩ => ⟨S1x64x1x64, .f32⟩
  | .hbm, ⟨35, _⟩ => ⟨S8x64x8x64, .f32⟩
  | .hbm, ⟨36, _⟩ => ⟨S8x64x8x64, .f32⟩
  | .hbm, ⟨37, _⟩ => ⟨S8x64x8x64, .f32⟩
  | .hbm, ⟨38, _⟩ => ⟨S512x512, .f32⟩
  | .hbm, ⟨39, _⟩ => ⟨S1x64, .f32⟩
  | .hbm, ⟨40, _⟩ => ⟨S8x64, .f32⟩
  | .hbm, ⟨41, _⟩ => ⟨S512, .f32⟩
  | .hbm, ⟨42, _⟩ => ⟨S1x512, .f32⟩
  | .hbm, ⟨43, _⟩ => ⟨S1x64, .f32⟩
  | .hbm, ⟨44, _⟩ => ⟨S8x64, .f32⟩
  | .hbm, ⟨45, _⟩ => ⟨S512, .f32⟩
  | .hbm, ⟨46, _⟩ => ⟨S1x512, .f32⟩
  | .hbm, ⟨47, _⟩ => ⟨S1x64, .f32⟩
  | .hbm, ⟨48, _⟩ => ⟨S8x64, .f32⟩
  | .hbm, ⟨49, _⟩ => ⟨S512, .f32⟩
  | .hbm, ⟨50, _⟩ => ⟨S1x512, .f32⟩
  | .hbm, ⟨51, _⟩ => ⟨S2x2048x1024, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x2048, .i32⟩
  | .local _ .vmem, ⟨7, _⟩ => ⟨S512x2048, .i32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S1x512x512, .f32⟩
  | .local _ .vmem, ⟨15, _⟩ => ⟨S1x512x512, .f32⟩
  | .local _ .vmem, ⟨16, _⟩ => ⟨S2048x512, .bf16⟩
  | .local _ .vmem, ⟨17, _⟩ => ⟨S2048x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v10 : Ref sig .tc := ⟨.hbm, 31, rfl⟩
abbrev main_v11 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  shapeCasts_S1x1x2048x2048_S2048x2048 : S1x1x2048x2048.ShapeCasts S2048x2048
  bcast_S_S8x8 : S_.BroadcastsInDim S8x8 (![] : Fin 0 → Fin S8x8.rank)
  transposes_S64x64_S64x64_1_0 : S64x64.Transposes [1, 0] S64x64
  bcast_S8x8_S8x1x8x1_0_2 : S8x8.BroadcastsInDim S8x1x8x1 (![0, 2] : Fin 2 → Fin S8x1x8x1.rank)
  bcast_S64x64_S1x64x1x64_1_3 : S64x64.BroadcastsInDim S1x64x1x64 (![1, 3] : Fin 2 → Fin S1x64x1x64.rank)
  bcast_S8x1x8x1_S8x64x8x64_0_1_2_3 : S8x1x8x1.BroadcastsInDim S8x64x8x64 (![0, 1, 2, 3] : Fin 4 → Fin S8x64x8x64.rank)
  bcast_S1x64x1x64_S8x64x8x64_0_1_2_3 : S1x64x1x64.BroadcastsInDim S8x64x8x64 (![0, 1, 2, 3] : Fin 4 → Fin S8x64x8x64.rank)
  shapeCasts_S8x64x8x64_S512x512 : S8x64x8x64.ShapeCasts S512x512
  shapeCasts_S64_S1x64 : S64.ShapeCasts S1x64
  bcast_S1x64_S8x64_0_1 : S1x64.BroadcastsInDim S8x64 (![0, 1] : Fin 2 → Fin S8x64.rank)
  shapeCasts_S8x64_S512 : S8x64.ShapeCasts S512
  shapeCasts_S512_S1x512 : S512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S1x512_S512x512 : S1x512.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x512_o0_0_S512x64 : S512x512.Slices ![0, 0] S512x64
  inb_S2048x512_S2048x64_0_0 : ∀ a, (![0, 0] : Fin 2 → Nat) a + S2048x64.size a ≤ S2048x512.size a
  h_S2048x64 : 0 < S2048x64.numel
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  slices_S512x512_o0_64_S512x64 : S512x512.Slices ![0, 64] S512x64
  inb_S2048x512_S2048x64_0_64 : ∀ a, (![0, 64] : Fin 2 → Nat) a + S2048x64.size a ≤ S2048x512.size a
  concatenates_S512x64_S512x64_S512x128_d1 : Shape.Concatenates [S512x64, S512x64] S512x128 1
  inb_S1x512x512_S1x512x128_0_0_0 : ∀ a, (![0, 0, 0] : Fin 3 → Nat) a + S1x512x128.size a ≤ S1x512x512.size a
  h_S1x512x128 : 0 < S1x512x128.numel
  shapeCasts_S1x512x128_S512x128 : S1x512x128.ShapeCasts S512x128
  shapeCasts_S512x128_S1x512x128 : S512x128.ShapeCasts S1x512x128
  slices_S512x512_o0_128_S512x64 : S512x512.Slices ![0, 128] S512x64
  inb_S2048x512_S2048x64_0_128 : ∀ a, (![0, 128] : Fin 2 → Nat) a + S2048x64.size a ≤ S2048x512.size a
  slices_S512x512_o0_192_S512x64 : S512x512.Slices ![0, 192] S512x64
  inb_S2048x512_S2048x64_0_192 : ∀ a, (![0, 192] : Fin 2 → Nat) a + S2048x64.size a ≤ S2048x512.size a
  inb_S1x512x512_S1x512x128_0_0_128 : ∀ a, (![0, 0, 128] : Fin 3 → Nat) a + S1x512x128.size a ≤ S1x512x512.size a
  slices_S512x512_o0_256_S512x64 : S512x512.Slices ![0, 256] S512x64
  inb_S2048x512_S2048x64_0_256 : ∀ a, (![0, 256] : Fin 2 → Nat) a + S2048x64.size a ≤ S2048x512.size a
  slices_S512x512_o0_320_S512x64 : S512x512.Slices ![0, 320] S512x64
  inb_S2048x512_S2048x64_0_320 : ∀ a, (![0, 320] : Fin 2 → Nat) a + S2048x64.size a ≤ S2048x512.size a
  inb_S1x512x512_S1x512x128_0_0_256 : ∀ a, (![0, 0, 256] : Fin 3 → Nat) a + S1x512x128.size a ≤ S1x512x512.size a
  slices_S512x512_o0_384_S512x64 : S512x512.Slices ![0, 384] S512x64
  inb_S2048x512_S2048x64_0_384 : ∀ a, (![0, 384] : Fin 2 → Nat) a + S2048x64.size a ≤ S2048x512.size a
  slices_S512x512_o0_448_S512x64 : S512x512.Slices ![0, 448] S512x64
  inb_S2048x512_S2048x64_0_448 : ∀ a, (![0, 448] : Fin 2 → Nat) a + S2048x64.size a ≤ S2048x512.size a
  inb_S1x512x512_S1x512x128_0_0_384 : ∀ a, (![0, 0, 384] : Fin 3 → Nat) a + S1x512x128.size a ≤ S1x512x512.size a
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x2048x1024.size a
  hwx0_0 : ∀ i : grid0.Coords, EltTy.bits .f32 = 32 ∨ (Rect.block (s := S2x2048x1024) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S2x2048x1024.size a
  hwx0_1 : ∀ i : grid0.Coords, EltTy.bits .f32 = 32 ∨ (Rect.block (s := S2x2048x1024) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S2x2048x1024.size a
  hwx0_2 : ∀ i : grid0.Coords, EltTy.bits .f32 = 32 ∨ (Rect.block (s := S2x2048x1024) S1x2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .i32 = 32 ∨ (Rect.block (s := S2048x2048) S512x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S2x2048x1024.size a
  hwx0_10 : ∀ i : grid0.Coords, EltTy.bits .f32 = 32 ∨ (Rect.block (s := S2x2048x1024) S1x512x512.size (cc0_transform_10 i) (hinb0_10 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S1x1x2048x2048 : Shape := ⟨4, ![1, 1, 2048, 2048]⟩
abbrev S64x64 : Shape := ⟨2, ![64, 64]⟩
abbrev S64 : Shape := ⟨1, ![64]⟩
abbrev S2x2048x16x64 : Shape := ⟨4, ![2, 2048, 16, 64]⟩
abbrev S2x16x2048x64 : Shape := ⟨4, ![2, 16, 2048, 64]⟩
abbrev S1x1x1x64 : Shape := ⟨4, ![1, 1, 1, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1x2048x2048, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x16x2048x64, .f32⟩
  | .hbm, ⟨17, _⟩ => ⟨S1x1x1x64, .f32⟩
  | .hbm, ⟨18, _⟩ => ⟨S2x16x2048x64, .f32⟩
  | .hbm, ⟨19, _⟩ => ⟨S2x16x2048x64, .f32⟩
  | .hbm, ⟨20, _⟩ => ⟨S2x16x2048x64, .f32⟩
  | .hbm, ⟨21, _⟩ => ⟨S1x1x1x64, .f32⟩
  | .hbm, ⟨22, _⟩ => ⟨S2x16x2048x64, .f32⟩
  | .hbm, ⟨23, _⟩ => ⟨S2x16x2048x64, .f32⟩
  | .hbm, ⟨24, _⟩ => ⟨S2x16x2048x64, .f32⟩
  | .hbm, ⟨25, _⟩ => ⟨S1x1x1x64, .f32⟩
  | .hbm, ⟨26, _⟩ => ⟨S2x16x2048x64, .f32⟩
  | .hbm, ⟨27, _⟩ => ⟨S2x16x2048x64, .f32⟩
  | .hbm, ⟨28, _⟩ => ⟨S2x16x2048x2048, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .i32⟩
  | .hbm, ⟨33, _⟩ => ⟨S1x1x2048x2048, .i32⟩
  | .hbm, ⟨34, _⟩ => ⟨S1x1x2048x2048, .i1⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S_, .f32⟩
  | .hbm, ⟨42, _⟩ => ⟨S2x16x2048, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S2x16x2048x1, .f32⟩
  | .hbm, ⟨51, _⟩ => ⟨S2x16x2048x2048, .f32⟩
  | .hbm, ⟨52, _⟩ => ⟨S2x16x2048x2048, .f32⟩
  | .hbm, ⟨53, _⟩ => ⟨S2x16x2048x64, .f32⟩
  | .hbm, ⟨54, _⟩ => ⟨S2x2048x16x64, .f32⟩
  | .hbm, ⟨55, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S64_S1x1x1x64_3 : S64.BroadcastsInDim S1x1x1x64 (![3] : Fin 1 → Fin S1x1x1x64.rank)
  bcast_S1x1x1x64_S2x16x2048x64_0_1_2_3 : S1x1x1x64.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  bcast_S_S1x1x2048x2048 : S_.BroadcastsInDim S1x1x2048x2048 (![] : Fin 0 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x16x2048x64_S64x64_S2x16x2048x64_3_1_012_0_n_n_wf : DotDims.WF S2x16x2048x64 S64x64 S2x16x2048x64 [3] [1] [0, 1, 2] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S64x64_S2x16x2048x64_3_1_012_0_n_n : DotDims S2x16x2048x64 S64x64 S2x16x2048x64 where
  lhsContracting := [3]
  rhsContracting := [1]
  lhsNonContracting := [0, 1, 2]
  rhsNonContracting := [0]
  lhsBatch := []
  rhsBatch := []
  wf := dot_S2x16x2048x64_S64x64_S2x16x2048x64_3_1_012_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  Multi-head attention with one shared linear layer per role, as a function of its arguments at the extended reals.

  The embedding axis of 1024 features is sixteen heads of 64 features. Every head applies the same three linear layers
  `x ↦ x Wᵀ + b` (one for queries, one for keys, one for values) to its 64 features. A query row is scored against every
  key row of its batch and head by the dot product of the projected features times one eighth (the reciprocal of the
  square root of 64); where the mask word of (query position, key position) is zero the score is replaced by the finite
  constant -1e20. The scores of one query row are turned into weights by the softmax — the exponential of the score
  minus the row's maximum, divided by the sum of those exponentials over the row — and the head's output is the weighted
  sum of the projected value rows. Feature `h * 64 + e` of the result at (batch, position) is feature `e` of head `h`.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The fill value of a masked score, the f32 nearest to -1e20 (a finite number). -/
def fillValue : EReal := Ideal.ofBits .f32 0xE0AD78EC#32

/-- The score scale, the f32 word of one eighth. -/
def eighth : EReal := Ideal.ofBits .f32 0x3E000000#32

/-- The value a row maximum starts from, the f32 word of minus infinity. -/
def negInf : EReal := Ideal.ofBits .f32 0xFF800000#32

theorem negInf_eq_bot : negInf = ⊥ := by
  simp [negInf, Ideal.ofBits, Ideal.ieee]

theorem eighth_eq : eighth = ((1 / 8 : ℝ) : EReal) := by
  simp [eighth, Ideal.ofBits, Ideal.ieee, -EReal.coe_mul]; norm_num

/-- The f32 word of eight, the number a reference divides the scores by. -/
theorem ofBits_eight : Ideal.ofBits .f32 0x41000000#32 = ((8 : ℝ) : EReal) := by
  simp [Ideal.ofBits, Ideal.ieee, -EReal.coe_mul]; norm_num

/-- Dividing by eight is multiplying by one eighth, on every extended real. -/
theorem div_eight (x : EReal) : Ideal.div x (Ideal.ofBits .f32 0x41000000#32) = x * eighth := by
  rw [ofBits_eight, eighth_eq]; exact Ideal.div_coe (by norm_num) x

/-- One head's linear layer on a row of 64 features: `(x Wᵀ + b) e = ∑ d, x d · W e d + b e`. -/
def proj (W : Fin 64 → Fin 64 → EReal) (b : Fin 64 → EReal) (x : Fin 64 → EReal) (e : Fin 64) : EReal :=
  (∑ d : Fin 64, x d * W e d) + b e

/-- The masked, scaled score of a projected query row against key row `k`. -/
def score (q : Fin 64 → EReal) (kp : Fin 2048 → Fin 64 → EReal) (mrow : Fin 2048 → BitVec 32) (k : Fin 2048) : EReal :=
  if mrow k = 0#32 then fillValue else (∑ d : Fin 64, q d * kp k d) * eighth

/-- The largest entry of a row of scores (the maximum started from minus infinity). -/
def rowMax (s : Fin 2048 → EReal) : EReal := (Finset.univ : Finset (Fin 2048)).fold max negInf s

/-- The exponential of a score minus its row's maximum. -/
def expo (s : Fin 2048 → EReal) (k : Fin 2048) : EReal := Ideal.exp (s k - rowMax s)

/-- The softmax weight of key row `k`. -/
def weight (s : Fin 2048 → EReal) (k : Fin 2048) : EReal := Ideal.div (expo s k) (∑ k' : Fin 2048, expo s k')

/-- One head's output for one query row: the softmax-weighted sum of the projected value rows. -/
def headRow (q : Fin 64 → EReal) (kp vp : Fin 2048 → Fin 64 → EReal) (mrow : Fin 2048 → BitVec 32) (e : Fin 64) : EReal :=
  ∑ k : Fin 2048, weight (score q kp mrow) k * vp k e

/-- Feature `d` of head `h` on the embedding axis. -/
def feat (h : Fin 16) (d : Fin 64) : Fin 1024 := ⟨h.val * 64 + d.val, by have := h.isLt; have := d.isLt; omega⟩

/-- Column `d` of head `g` among the 512 columns (eight heads) one grid point handles. -/
def lane (g : Fin 8) (d : Fin 64) : Fin 512 := ⟨g.val * 64 + d.val, by have := g.isLt; have := d.isLt; omega⟩

abbrev SAct : Shape := ⟨3, ![2, 2048, 1024]⟩
abbrev SMask : Shape := ⟨4, ![1, 1, 2048, 2048]⟩
abbrev SW : Shape := ⟨2, ![64, 64]⟩
abbrev SB : Shape := ⟨1, ![64]⟩

variable (query key value : SAct.Idx → EReal) (mask : SMask.Idx → BitVec 32)
  (Wq : SW.Idx → EReal) (bq : SB.Idx → EReal) (Wk : SW.Idx → EReal) (bk : SB.Idx → EReal)
  (Wv : SW.Idx → EReal) (bv : SB.Idx → EReal)

/-- The projected query row of (batch, position, head). -/
def qRow (b : Fin 2) (s : Fin 2048) (h : Fin 16) : Fin 64 → EReal :=
  proj (fun e d => Wq (ix2 e d)) (fun e => bq (ix1 e)) (fun d => query (ix3 b s (feat h d)))

/-- The projected key rows of (batch, head). -/
def kRows (b : Fin 2) (h : Fin 16) (k : Fin 2048) : Fin 64 → EReal :=
  proj (fun e d => Wk (ix2 e d)) (fun e => bk (ix1 e)) (fun d => key (ix3 b k (feat h d)))

/-- The projected value rows of (batch, head). -/
def vRows (b : Fin 2) (h : Fin 16) (k : Fin 2048) : Fin 64 → EReal :=
  proj (fun e d => Wv (ix2 e d)) (fun e => bv (ix1 e)) (fun d => value (ix3 b k (feat h d)))

/-- The attention output at (batch, position), head `h`, feature `e` of the head. -/
def attnAt (b : Fin 2) (s : Fin 2048) (h : Fin 16) (e : Fin 64) : EReal :=
  headRow (qRow query Wq bq b s h) (kRows key Wk bk b h) (vRows value Wv bv b h) (fun k => mask (ix4 0 0 s k)) e

/-- The whole result array: feature `j` of the embedding axis is feature `j % 64` of head `j / 64`. -/
def attnOut : SAct.Idx → EReal := fun i =>
  attnAt query key value mask Wq bq Wk bk Wv bv (i 0) (i 1)
    ⟨(i 2).val / 64, by have h : (i 2).val < 1024 := (i 2).isLt; omega⟩
    ⟨(i 2).val % 64, Nat.mod_lt _ (by norm_num)⟩

theorem attnOut_apply (b : Fin 2) (s : Fin 2048) (h : Fin 16) (e : Fin 64) :
    attnOut query key value mask Wq bq Wk bk Wv bv (ix3 b s (feat h e))
      = attnAt query key value mask Wq bq Wk bk Wv bv b s h e := by
  have h1 : (⟨(feat h e).val / 64, by have := (feat h e).isLt; omega⟩ : Fin 16) = h :=
    Fin.ext (by show (h.val * 64 + e.val) / 64 = h.val; have := e.isLt; omega)
  have h2 : (⟨(feat h e).val % 64, Nat.mod_lt _ (by norm_num)⟩ : Fin 64) = e :=
    Fin.ext (by show (h.val * 64 + e.val) % 64 = e.val; have := e.isLt; omega)
  show attnAt query key value mask Wq bq Wk bk Wv bv b s ⟨(feat h e).val / 64, _⟩ ⟨(feat h e).val % 64, _⟩ = _
  rw [h1, h2]

end Cert.Attn

end
-- ==== Proof.RefValue.lean ====
/-
  The reference program's result is the multi-head attention function of its ten arguments.

  The reference splits the 1024 features of the query, key and value arrays into sixteen heads of 64 (a reshape and a
  transposition that brings the head axis forward), applies to each head's rows one linear layer per role (a contraction
  with a 64×64 weight matrix plus a bias row), contracts projected query rows with projected key rows over the 64 features,
  divides by eight, replaces the entries whose mask word is zero by a finite fill constant, and turns each row into
  softmax weights: the row maximum (started from minus infinity, and once more compared with minus infinity, which
  changes nothing), the exponential of the difference, the row sum started from zero, and the quotient. The weights are
  contracted with the projected value rows, and the head axis is moved back and merged into the feature axis.

  Each stage is read here at an index given by its coordinates (batch, head, position, feature), from the innermost
  stage outwards, until the last stage at (batch, position, head · 64 + feature) is the specification's head output.
-/
import proofs.«422591_j53541062312519_3_alg».proof.Proof.Gen.ReferenceIdeal.Read
import proofs.«422591_j53541062312519_3_alg».proof.Proof.Attention
import Idealize.ShloMosaic.PureOps.Reduce
import Idealize.ShloMosaic.PureOps.Ideal.Laws
import Idealize.ShloMosaic.Lib.ValueIdx
import Idealize.ShloMosaic.Lib.StableHlo.Predicate

noncomputable section

namespace Cert.Attn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 x1 x2 : (⟨S2x2048x1024, .f32⟩ : BufTy).Contents (Elt Ideal))
  (x3 : (⟨S1x1x2048x2048, .i32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))

/-! ## Splitting the features into heads -/

/-- Entry (batch, head, position, feature) of the array with the head axis in front is the entry of the argument at
    (batch, position, head · 64 + feature): the flat position of (b, s, h, d) in [2, 2048, 16, 64] is that of
    (b, s, 64 h + d) in [2, 2048, 1024]. -/
theorem heads_apply (x : (⟨S2x2048x1024, .f32⟩ : BufTy).Contents (Elt Ideal)) (b : Fin 2) (h : Fin 16) (s : Fin 2048)
    (d : Fin 64) : val_main_v1 (F := Ideal) x (ix4 b h s d) = x (ix3 b s (feat h d)) := by
  rw [val_main_v1_apply, val_main_v0_apply]
  refine congrArg x (funext fun a => Fin.ext ?_)
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-! ## The linear layers -/

/-- The projected array of one role at (batch, head, position, feature) is the head's linear layer applied to the
    64 features of that head at that position. -/
theorem layer_apply (x : (⟨S2x2048x1024, .f32⟩ : BufTy).Contents (Elt Ideal))
    (w : (⟨S64x64, .f32⟩ : BufTy).Contents (Elt Ideal)) (bias : (⟨S64, .f32⟩ : BufTy).Contents (Elt Ideal))
    (b : Fin 2) (h : Fin 16) (s : Fin 2048) (e : Fin 64) :
    val_main_v9 (F := Ideal) x w bias (ix4 b h s e)
      = proj (fun e d => w (ix2 e d)) (fun e => bias (ix1 e)) (fun d => x (ix3 b s (feat h d))) e := by
  rw [val_main_v9_apply, val_main_v6_apply, val_main_v8_apply, val_main_v7_apply, Ideal.addf_def]
  unfold proj
  refine congrArg₂ (· + ·) (Finset.sum_congr rfl fun k _ => ?_) (congrArg bias (funext fun a => Fin.ext ?_))
  · have el : lidx_main_v6 (ix4 b h s e) k = ix4 b h s k := funext fun a => Fin.ext (by
      match a with
      | ⟨0, _⟩ => rfl
      | ⟨1, _⟩ => rfl
      | ⟨2, _⟩ => rfl
      | ⟨3, _⟩ => rfl)
    have er : ridx_main_v6 (ix4 b h s e) k = ix2 e k := funext fun a => Fin.ext (by
      match a with
      | ⟨0, _⟩ => rfl
      | ⟨1, _⟩ => rfl)
    rw [el, er, heads_apply]
  · match a with
    | ⟨0, _⟩ => rfl

/-- The key role's projected array is the same composition of operations as the query role's, on its own arguments. -/
theorem keyLayer_eq (x : (⟨S2x2048x1024, .f32⟩ : BufTy).Contents (Elt Ideal))
    (w : (⟨S64x64, .f32⟩ : BufTy).Contents (Elt Ideal)) (bias : (⟨S64, .f32⟩ : BufTy).Contents (Elt Ideal)) :
    val_main_v13 (F := Ideal) x w bias = val_main_v9 (F := Ideal) x w bias := rfl

/-- So is the value role's. -/
theorem valueLayer_eq (x : (⟨S2x2048x1024, .f32⟩ : BufTy).Contents (Elt Ideal))
    (w : (⟨S64x64, .f32⟩ : BufTy).Contents (Elt Ideal)) (bias : (⟨S64, .f32⟩ : BufTy).Contents (Elt Ideal)) :
    val_main_v17 (F := Ideal) x w bias = val_main_v9 (F := Ideal) x w bias := rfl

/-! ## Scores -/

/-- The scaled score of a query position against a key position: the dot product of the projected rows times one
    eighth. -/
theorem scaled_apply (b : Fin 2) (h : Fin 16) (s k : Fin 2048) :
    val_main_v20 (F := Ideal) x0 x1 x4 x5 x6 x7 (ix4 b h s k)
      = (∑ d : Fin 64, qRow x0 x4 x5 b s h d * kRows x1 x6 x7 b h k d) * eighth := by
  rw [val_main_v20_apply, val_main_v19_apply, val_main_cst_apply, val_main_v18_apply, Ideal.hostDivf_def,
    Ideal.ofBits_def, div_eight]
  refine congrArg (· * eighth) (Finset.sum_congr rfl fun d _ => ?_)
  have el : lidx_main_v18 (ix4 b h s k) d = ix4 b h s d := funext fun a => Fin.ext (by
    match a with
    | ⟨0, _⟩ => rfl
    | ⟨1, _⟩ => rfl
    | ⟨2, _⟩ => rfl
    | ⟨3, _⟩ => rfl)
  have er : ridx_main_v18 (ix4 b h s k) d = ix4 b h k d := funext fun a => Fin.ext (by
    match a with
    | ⟨0, _⟩ => rfl
    | ⟨1, _⟩ => rfl
    | ⟨2, _⟩ => rfl
    | ⟨3, _⟩ => rfl)
  rw [el, er, keyLayer_eq, layer_apply, layer_apply]
  rfl

/-- The row of scores of (batch, head, query position), as the specification writes it. -/
abbrev scores (b : Fin 2) (h : Fin 16) (s : Fin 2048) : Fin 2048 → EReal :=
  score (qRow x0 x4 x5 b s h) (kRows x1 x6 x7 b h) (fun k => x3 (ix4 0 0 s k))

/-- The masked score: where the mask word of (query position, key position) is zero, the fill constant. -/
theorem masked_apply (b : Fin 2) (h : Fin 16) (s k : Fin 2048) :
    val_main_v23 (F := Ideal) x0 x1 x3 x4 x5 x6 x7 (ix4 b h s k) = scores x0 x1 x3 x4 x5 x6 x7 b h s k := by
  rw [val_main_v23_apply, val_main_call0_v0_apply, val_main_v22_apply, val_main_v21_apply, val_main_c_apply,
    val_main_call0_v1_apply, val_main_cst_0_apply, scaled_apply]
  have ei : idx_main_call0_v0 (ix4 b h s k) = ix4 0 0 s k := funext fun a => Fin.ext (by
    match a with
    | ⟨0, _⟩ => rfl
    | ⟨1, _⟩ => rfl
    | ⟨2, _⟩ => rfl
    | ⟨3, _⟩ => rfl)
  rw [ei]
  show (if IntOp.cmpi .eq (x3 (ix4 0 0 s k)) 0#32 = 1 then fillValue else _) = (if x3 (ix4 0 0 s k) = 0#32 then fillValue else _)
  by_cases hm : x3 (ix4 0 0 s k) = 0#32
  · rw [if_pos hm, if_pos (show IntOp.cmpi .eq (x3 (ix4 0 0 s k)) 0#32 = 1 from Predicate.cmpi_eq_iff.2 hm)]
  · rw [if_neg hm, if_neg (show ¬IntOp.cmpi .eq (x3 (ix4 0 0 s k)) 0#32 = 1 from fun hc => hm (Predicate.cmpi_eq_iff.1 hc))]

/-! ## The softmax -/

/-- A row index of the score array with a key position put back on the last axis. -/
theorem lift_row (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext c; apply Fin.ext
  fin_cases c <;> rfl

/-- The maximum over the last axis started from minus infinity is the specification's row maximum. -/
theorem reduceMax_apply (b : Fin 2) (h : Fin 16) (s : Fin 2048) :
    val_main_v24 (F := Ideal) x0 x1 x3 x4 x5 x6 x7 (ix3 b h s) = rowMax (scores x0 x1 x3 x4 x5 x6 x7 b h s) := by
  have hr : S2x16x2048x2048.Reduces [3] S2x16x2048 := by decide
  unfold val_main_v24
  rw [Host.reduce_eq_fold_single FloatOps.maximumf _ _ reducesTo_S2x16x2048x2048_S2x16x2048_d3 hr h_S_]
  have hf : (val_main_v23 (F := Ideal) x0 x1 x3 x4 x5 x6 x7 ∘ hr.lift (ix3 b h s))
      = fun k : Fin 2048 => scores x0 x1 x3 x4 x5 x6 x7 b h s k :=
    funext fun k => (congrArg (val_main_v23 (F := Ideal) x0 x1 x3 x4 x5 x6 x7) (lift_row hr b h s k)).trans
      (masked_apply x0 x1 x3 x4 x5 x6 x7 b h s _)
  exact congrArg (fun f => Finset.fold max negInf f (Finset.univ : Finset (Fin 2048))) hf

/-- Comparing once more with minus infinity changes nothing. -/
theorem rowMax_apply (b : Fin 2) (h : Fin 16) (s : Fin 2048) :
    val_main_v26 (F := Ideal) x0 x1 x3 x4 x5 x6 x7 (ix3 b h s) = rowMax (scores x0 x1 x3 x4 x5 x6 x7 b h s) := by
  rw [val_main_v26_apply, val_main_v25_apply, val_main_cst_2_apply, reduceMax_apply, Ideal.maximumf_def,
    Ideal.ofBits_def]
  show max negInf _ = _
  rw [negInf_eq_bot]
  exact max_eq_right bot_le

/-- The exponential of a score minus its row's maximum. -/
theorem expo_apply (b : Fin 2) (h : Fin 16) (s k : Fin 2048) :
    val_main_v30 (F := Ideal) x0 x1 x3 x4 x5 x6 x7 (ix4 b h s k) = expo (scores x0 x1 x3 x4 x5 x6 x7 b h s) k := by
  rw [val_main_v30_apply, val_main_v29_apply, val_main_v28_apply, val_main_v27_apply, masked_apply]
  have ei : idx_main_v27 (idx_main_v28 (ix4 b h s k)) = ix3 b h s := funext fun a => Fin.ext (by
    match a with
    | ⟨0, _⟩ => rfl
    | ⟨1, _⟩ => rfl
    | ⟨2, _⟩ => rfl)
  rw [ei, rowMax_apply, Ideal.hostUnary_exp_def, Ideal.subf_def]
  rfl

/-- The sum of a row's exponentials, started from zero. -/
theorem denom_apply (b : Fin 2) (h : Fin 16) (s : Fin 2048) :
    val_main_v31 (F := Ideal) x0 x1 x3 x4 x5 x6 x7 (ix3 b h s)
      = ∑ k : Fin 2048, expo (scores x0 x1 x3 x4 x5 x6 x7 b h s) k := by
  rw [val_main_v31_apply, val_main_cst_3_apply, Ideal.ofBits_def, Ideal.ofBits_zero_f32, zero_add]
  refine Finset.sum_congr rfl fun k _ => ?_
  have ei : idx_main_v31 (ix3 b h s) k = ix4 b h s k := funext fun a => Fin.ext (by
    match a with
    | ⟨0, _⟩ => rfl
    | ⟨1, _⟩ => rfl
    | ⟨2, _⟩ => rfl
    | ⟨3, _⟩ => rfl)
  rw [ei, expo_apply]

/-- The softmax weight of a key position. -/
theorem weight_apply (b : Fin 2) (h : Fin 16) (s k : Fin 2048) :
    val_main_v34 (F := Ideal) x0 x1 x3 x4 x5 x6 x7 (ix4 b h s k) = weight (scores x0 x1 x3 x4 x5 x6 x7 b h s) k := by
  rw [val_main_v34_apply, val_main_v33_apply, val_main_v32_apply, expo_apply]
  have ei : idx_main_v32 (idx_main_v33 (ix4 b h s k)) = ix3 b h s := funext fun a => Fin.ext (by
    match a with
    | ⟨0, _⟩ => rfl
    | ⟨1, _⟩ => rfl
    | ⟨2, _⟩ => rfl)
  rw [ei, denom_apply, Ideal.hostDivf_def]
  rfl

/-! ## The heads' outputs, and merging the heads -/

/-- The weighted sum of the projected value rows is the specification's head output. -/
theorem head_apply (b : Fin 2) (h : Fin 16) (s : Fin 2048) (e : Fin 64) :
    val_main_v35 (F := Ideal) x0 x1 x2 x3 x4 x5 x6 x7 x8 x9 (ix4 b h s e)
      = attnAt x0 x1 x2 x3 x4 x5 x6 x7 x8 x9 b s h e := by
  rw [val_main_v35_apply]
  unfold attnAt headRow
  refine Finset.sum_congr rfl fun k _ => ?_
  have el : lidx_main_v35 (ix4 b h s e) k = ix4 b h s k := funext fun a => Fin.ext (by
    match a with
    | ⟨0, _⟩ => rfl
    | ⟨1, _⟩ => rfl
    | ⟨2, _⟩ => rfl
    | ⟨3, _⟩ => rfl)
  have er : ridx_main_v35 (ix4 b h s e) k = ix4 b h k e := funext fun a => Fin.ext (by
    match a with
    | ⟨0, _⟩ => rfl
    | ⟨1, _⟩ => rfl
    | ⟨2, _⟩ => rfl
    | ⟨3, _⟩ => rfl)
  rw [el, er, weight_apply, valueLayer_eq, layer_apply]
  rfl

/-- Feature h · 64 + e of the result at (batch, position) is feature e of head h there: the flat position of
    (b, s, 64 h + e) in [2, 2048, 1024] is that of (b, s, h, e) in [2, 2048, 16, 64]. -/
theorem merge_apply (b : Fin 2) (s : Fin 2048) (h : Fin 16) (e : Fin 64) :
    val_main_v37 (F := Ideal) x0 x1 x2 x3 x4 x5 x6 x7 x8 x9 (ix3 b s (feat h e))
      = val_main_v35 (F := Ideal) x0 x1 x2 x3 x4 x5 x6 x7 x8 x9 (ix4 b h s e) := by
  rw [val_main_v37_apply, val_main_v36_apply]
  refine congrArg _ (funext fun a => Fin.ext ?_)
  have hb := b.isLt; have hh := h.isLt; have hs := s.isLt; have he := e.isLt
  match a with
  | ⟨0, _⟩ => show ((b.val * 2048 + s.val) * 1024 + (h.val * 64 + e.val)) / 2097152 = b.val; omega
  | ⟨1, _⟩ => show ((b.val * 2048 + s.val) * 1024 + (h.val * 64 + e.val)) / 64 % 16 = h.val; omega
  | ⟨2, _⟩ => show ((b.val * 2048 + s.val) * 1024 + (h.val * 64 + e.val)) / 1024 % 2048 = s.val; omega
  | ⟨3, _⟩ => show ((b.val * 2048 + s.val) * 1024 + (h.val * 64 + e.val)) % 64 = e.val; omega

/-- The last stage, as one array, is the attention function of the ten arguments. -/
theorem stage_eq :
    val_main_v37 (F := Ideal) x0 x1 x2 x3 x4 x5 x6 x7 x8 x9 = attnOut x0 x1 x2 x3 x4 x5 x6 x7 x8 x9 := by
  funext i
  obtain ⟨b, s, j, rfl⟩ : ∃ (b : Fin 2) (s : Fin 2048) (j : Fin 1024), i = ix3 b s j := ⟨i 0, i 1, i 2, eq_ix3 i⟩
  obtain ⟨h, e, rfl⟩ : ∃ (h : Fin 16) (e : Fin 64), j = feat h e :=
    ⟨⟨j.val / 64, by have := j.isLt; omega⟩, ⟨j.val % 64, Nat.mod_lt _ (by norm_num)⟩,
      Fin.ext (by show j.val = j.val / 64 * 64 + j.val % 64; omega)⟩
  rw [merge_apply, head_apply, attnOut_apply]

/-- The reference program's result term is the attention function of the ten argument buffers. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v37 (F := Ideal) m c
      = attnOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  (val_main_v37_eq (F := Ideal) m c).trans (stage_eq _ _ _ _ _ _ _ _ _ _)

end Cert.Attn.Ref

end
-- ==== Proof.Pieces.lean ====
/-
  What one grid point of the attention kernel leaves behind, as terms of the values it loaded.

  The output tile (one batch row, 512 query positions, 512 features = eight heads) is stored in four pieces of 128
  features, each the concatenation of two heads' outputs; a head's output is computed from the tile's projected queries,
  the tile's mask words and 64 columns of the two scratch arrays that hold the projected keys and values of the current
  (batch, head group). At the first query tile of a head group the body first fills the two scratch arrays with the
  projections of the group's key and value blocks and then reads them back; at the other query tiles it reads what the
  point before left there. `outStores` is that list of four stores as a function of the loaded blocks and of the scratch
  contents, and the theorems say that both cases of the body leave exactly it.
-/
import proofs.«422591_j53541062312519_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The four stores into the output tile (last made first), over the loaded query block `x0`, mask block `x3`, query
    weight and bias `x4`, `x5`, and the contents `KS`, `VS` of the two scratch arrays. -/
def outStores (x0 : Vec F S1x512x512 .f32) (x3 : Vec F S512x2048 .i32) (x4 : Vec F S512x512 .f32) (x5 : Vec F S1x512 .f32)
    (KS VS : Vec F S2048x512 .bf16) : List (View.Piece (Elt F) S1x512x512 .f32) :=
  [⟨Rect.unit ![0, 0, 384] ![1, 512, 128] inb_S1x512x512_S1x512x128_0_0_384,
      k0_pay1 (k0_pay5 x3) (k0_pay17 (k0_pay4 x0 x4 x5) (k0_pay5 x3) (View.ld KS (Rect.unit ![0, 384] S2048x64.size inb_S2048x512_S2048x64_0_384)) (View.ld VS (Rect.unit ![0, 384] S2048x64.size inb_S2048x512_S2048x64_0_384))) (View.ld VS (Rect.unit ![0, 448] S2048x64.size inb_S2048x512_S2048x64_0_448)) (k0_pay18 (k0_pay4 x0 x4 x5) (View.ld KS (Rect.unit ![0, 448] S2048x64.size inb_S2048x512_S2048x64_0_448))) 0#32⟩,
   ⟨Rect.unit ![0, 0, 256] ![1, 512, 128] inb_S1x512x512_S1x512x128_0_0_256,
      k0_pay16 (k0_pay13 (k0_pay5 x3) (k0_pay12 (k0_pay4 x0 x4 x5)) (View.ld KS (Rect.unit ![0, 256] S2048x64.size inb_S2048x512_S2048x64_0_256)) (View.ld VS (Rect.unit ![0, 256] S2048x64.size inb_S2048x512_S2048x64_0_256))) (View.ld VS (Rect.unit ![0, 320] S2048x64.size inb_S2048x512_S2048x64_0_320)) (k0_pay14 (k0_pay4 x0 x4 x5) (k0_pay5 x3) (View.ld KS (Rect.unit ![0, 320] S2048x64.size inb_S2048x512_S2048x64_0_320))) (k0_pay15 (k0_pay4 x0 x4 x5) (k0_pay5 x3) (View.ld KS (Rect.unit ![0, 320] S2048x64.size inb_S2048x512_S2048x64_0_320)))⟩,
   ⟨Rect.unit ![0, 0, 128] ![1, 512, 128] inb_S1x512x512_S1x512x128_0_0_128,
      k0_pay11 (k0_pay4 x0 x4 x5) (k0_pay5 x3) (View.ld VS (Rect.unit ![0, 128] S2048x64.size inb_S2048x512_S2048x64_0_128)) (k0_pay9 (k0_pay4 x0 x4 x5) (View.ld KS (Rect.unit ![0, 128] S2048x64.size inb_S2048x512_S2048x64_0_128))) k0_pay10 (View.ld KS (Rect.unit ![0, 192] S2048x64.size inb_S2048x512_S2048x64_0_192)) (View.ld VS (Rect.unit ![0, 192] S2048x64.size inb_S2048x512_S2048x64_0_192))⟩,
   ⟨Rect.unit ![0, 0, 0] ![1, 512, 128] inb_S1x512x512_S1x512x128_0_0_0,
      k0_pay8 (k0_pay4 x0 x4 x5) (k0_pay5 x3) (View.ld VS (Rect.unit ![0, 0] S2048x64.size inb_S2048x512_S2048x64_0_0)) (k0_pay6 x0 x4 x5 x3 (View.ld KS (Rect.unit ![0, 0] S2048x64.size inb_S2048x512_S2048x64_0_0))) (k0_pay7 x0 x4 x5 x3 (View.ld KS (Rect.unit ![0, 0] S2048x64.size inb_S2048x512_S2048x64_0_0))) (View.ld KS (Rect.unit ![0, 64] S2048x64.size inb_S2048x512_S2048x64_0_64)) (View.ld VS (Rect.unit ![0, 64] S2048x64.size inb_S2048x512_S2048x64_0_64))⟩]

theorem hz2 : (![0, 0] : Fin 2 → Nat) = fun _ => 0 := by funext a; fin_cases a <;> rfl
theorem hz3 : (![0, 0, 0] : Fin 3 → Nat) = fun _ => 0 := by funext a; fin_cases a <;> rfl

/-- A load through any rectangle of a scratch array that ONE whole store has just filled reads that store's value. -/
theorem readCov_whole_store {sig' : RefSig} {κ : Kind} {sp : Space} (v : View sig' κ sp S2048x512 .bf16) (w : S2048x512.Idx → Elt F .bf16)
    (r : Rect S2048x512) :
    v.readCov [(⟨Rect.unit ![0, 0] S2048x512.size inb_S2048x512_S2048x512_0_0, w⟩ : View.Piece (Elt F) S2048x512 .bf16)] r.toLoadRect
      = View.ld w r := by
  rw [View.readCov_eq_canon_ld _ _ _ (fun y => ⟨_, List.mem_singleton_self _, View.mem_set_unit_zero hz2 inb_S2048x512_S2048x512_0_0 y⟩),
    View.canon_unit_zero hz2]

/-- At the first query tile of a head group the key scratch is left at the projection of the group's key block. -/
theorem sout0_A_0_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S512x2048 .i32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S1x512x512 .f32) (harg13 : arg13.IsWhole) (arg14 : Memref sig .tc .vmem S2048x512 .bf16) (harg14 : arg14.IsWhole) (arg15 : Memref sig .tc .vmem S2048x512 .bf16) (harg15 : arg15.IsWhole) (hc0 : cond0_0 i) (x0 : Vec F S1x512x512 .f32) (x1 : Vec F S1x2048x512 .f32) (x2 : Vec F S1x2048x512 .f32) (x3 : Vec F S512x2048 .i32) (x4 : Vec F S512x512 .f32) (x5 : Vec F S1x512 .f32) (x6 : Vec F S512x512 .f32) (x7 : Vec F S1x512 .f32) (x8 : Vec F S512x512 .f32) (x9 : Vec F S1x512 .f32) :
    sout0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay2 x1 x6 x7 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg4.read_unread, harg9.read_unread, harg10.read_unread,
    View.ld_unit_zero (S := S1x2048x512) hz3, View.ld_unit_zero (S := S512x512) hz2, View.ld_unit_zero (S := S1x512) hz2]

/-- … and the value scratch at the projection of the group's value block. -/
theorem sout0_A_1_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S512x2048 .i32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S1x512x512 .f32) (harg13 : arg13.IsWhole) (arg14 : Memref sig .tc .vmem S2048x512 .bf16) (harg14 : arg14.IsWhole) (arg15 : Memref sig .tc .vmem S2048x512 .bf16) (harg15 : arg15.IsWhole) (hc0 : cond0_0 i) (x0 : Vec F S1x512x512 .f32) (x1 : Vec F S1x2048x512 .f32) (x2 : Vec F S1x2048x512 .f32) (x3 : Vec F S512x2048 .i32) (x4 : Vec F S512x512 .f32) (x5 : Vec F S1x512 .f32) (x6 : Vec F S512x512 .f32) (x7 : Vec F S1x512 .f32) (x8 : Vec F S512x512 .f32) (x9 : Vec F S1x512 .f32) :
    sout0_A_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay3 x2 x8 x9 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg5.read_unread, harg11.read_unread, harg12.read_unread,
    View.ld_unit_zero (S := S1x2048x512) hz3, View.ld_unit_zero (S := S512x512) hz2, View.ld_unit_zero (S := S1x512) hz2]

set_option maxHeartbeats 4000000 in
/-- At the first query tile of a head group the output tile is left at the four stores over the scratch contents the
    body has just written. -/
theorem out0_A_10_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S512x2048 .i32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S1x512x512 .f32) (harg13 : arg13.IsWhole) (arg14 : Memref sig .tc .vmem S2048x512 .bf16) (harg14 : arg14.IsWhole) (arg15 : Memref sig .tc .vmem S2048x512 .bf16) (harg15 : arg15.IsWhole) (hc0 : cond0_0 i) (x0 : Vec F S1x512x512 .f32) (x1 : Vec F S1x2048x512 .f32) (x2 : Vec F S1x2048x512 .f32) (x3 : Vec F S512x2048 .i32) (x4 : Vec F S512x512 .f32) (x5 : Vec F S1x512 .f32) (x6 : Vec F S512x512 .f32) (x7 : Vec F S1x512 .f32) (x8 : Vec F S512x512 .f32) (x9 : Vec F S1x512 .f32) :
    out0_A_10 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = View.canon (outStores x0 x3 x4 x5 (k0_pay2 x1 x6 x7) (k0_pay3 x2 x8 x9)) := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  simp only [View.readAt_eq_ld]
  simp only [harg3.read_unread, harg4.read_unread, harg5.read_unread, harg6.read_unread, harg7.read_unread,
    harg8.read_unread, harg9.read_unread, harg10.read_unread, harg11.read_unread, harg12.read_unread]
  simp only [View.ld_unit_zero (S := S1x512x512) hz3, View.ld_unit_zero (S := S1x2048x512) hz3, View.ld_unit_zero (S := S512x512) hz2,
    View.ld_unit_zero (S := S1x512) hz2, View.ld_unit_zero (S := S512x2048) hz2]
  have ek0 := readCov_whole_store (F := F) arg14.view (k0_pay2 x1 x6 x7) (Rect.unit ![0, 0] S2048x64.size inb_S2048x512_S2048x64_0_0)
  have ev0 := readCov_whole_store (F := F) arg15.view (k0_pay3 x2 x8 x9) (Rect.unit ![0, 0] S2048x64.size inb_S2048x512_S2048x64_0_0)
  have ek64 := readCov_whole_store (F := F) arg14.view (k0_pay2 x1 x6 x7) (Rect.unit ![0, 64] S2048x64.size inb_S2048x512_S2048x64_0_64)
  have ev64 := readCov_whole_store (F := F) arg15.view (k0_pay3 x2 x8 x9) (Rect.unit ![0, 64] S2048x64.size inb_S2048x512_S2048x64_0_64)
  have ek128 := readCov_whole_store (F := F) arg14.view (k0_pay2 x1 x6 x7) (Rect.unit ![0, 128] S2048x64.size inb_S2048x512_S2048x64_0_128)
  have ev128 := readCov_whole_store (F := F) arg15.view (k0_pay3 x2 x8 x9) (Rect.unit ![0, 128] S2048x64.size inb_S2048x512_S2048x64_0_128)
  have ek192 := readCov_whole_store (F := F) arg14.view (k0_pay2 x1 x6 x7) (Rect.unit ![0, 192] S2048x64.size inb_S2048x512_S2048x64_0_192)
  have ev192 := readCov_whole_store (F := F) arg15.view (k0_pay3 x2 x8 x9) (Rect.unit ![0, 192] S2048x64.size inb_S2048x512_S2048x64_0_192)
  have ek256 := readCov_whole_store (F := F) arg14.view (k0_pay2 x1 x6 x7) (Rect.unit ![0, 256] S2048x64.size inb_S2048x512_S2048x64_0_256)
  have ev256 := readCov_whole_store (F := F) arg15.view (k0_pay3 x2 x8 x9) (Rect.unit ![0, 256] S2048x64.size inb_S2048x512_S2048x64_0_256)
  have ek320 := readCov_whole_store (F := F) arg14.view (k0_pay2 x1 x6 x7) (Rect.unit ![0, 320] S2048x64.size inb_S2048x512_S2048x64_0_320)
  have ev320 := readCov_whole_store (F := F) arg15.view (k0_pay3 x2 x8 x9) (Rect.unit ![0, 320] S2048x64.size inb_S2048x512_S2048x64_0_320)
  have ek384 := readCov_whole_store (F := F) arg14.view (k0_pay2 x1 x6 x7) (Rect.unit ![0, 384] S2048x64.size inb_S2048x512_S2048x64_0_384)
  have ev384 := readCov_whole_store (F := F) arg15.view (k0_pay3 x2 x8 x9) (Rect.unit ![0, 384] S2048x64.size inb_S2048x512_S2048x64_0_384)
  have ek448 := readCov_whole_store (F := F) arg14.view (k0_pay2 x1 x6 x7) (Rect.unit ![0, 448] S2048x64.size inb_S2048x512_S2048x64_0_448)
  have ev448 := readCov_whole_store (F := F) arg15.view (k0_pay3 x2 x8 x9) (Rect.unit ![0, 448] S2048x64.size inb_S2048x512_S2048x64_0_448)
  rw [ek0, ev0, ek64, ev64, ek128, ev128, ek192, ev192, ek256, ev256, ek320, ev320, ek384, ev384, ek448, ev448]
  rfl

set_option maxHeartbeats 4000000 in
/-- At the other query tiles the output tile is left at the four stores over the scratch contents the point before left. -/
theorem out0_B_10_eq (c : Dev nD) (i : grid0.Coords) (arg3 : Memref sig .tc .vmem S1x512x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S512x2048 .i32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S1x512x512 .f32) (harg13 : arg13.IsWhole) (arg14 : Memref sig .tc .vmem S2048x512 .bf16) (harg14 : arg14.IsWhole) (arg15 : Memref sig .tc .vmem S2048x512 .bf16) (harg15 : arg15.IsWhole) (hc0 : ¬cond0_0 i) (x0 : Vec F S1x512x512 .f32) (x1 : Vec F S1x2048x512 .f32) (x2 : Vec F S1x2048x512 .f32) (x3 : Vec F S512x2048 .i32) (x4 : Vec F S512x512 .f32) (x5 : Vec F S1x512 .f32) (x6 : Vec F S512x512 .f32) (x7 : Vec F S1x512 .f32) (x8 : Vec F S512x512 .f32) (x9 : Vec F S1x512 .f32) (xs0 : Vec F S2048x512 .bf16) (xs1 : Vec F S2048x512 .bf16) :
    out0_B_10 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 = View.canon (outStores x0 x3 x4 x5 xs0 xs1) := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1)]
  unfold kernelRun0_B
  dsimp only
  sl_unfold_words
  simp only [View.readAt_eq_ld]
  simp only [harg3.read_unread, harg6.read_unread, harg7.read_unread, harg8.read_unread, harg14.read_unread, harg15.read_unread]
  simp only [View.ld_unit_zero (S := S1x512x512) hz3, View.ld_unit_zero (S := S512x512) hz2,
    View.ld_unit_zero (S := S1x512) hz2, View.ld_unit_zero (S := S512x2048) hz2]
  rfl

end Cert.KernelIdeal.Gen

end
-- ==== Proof.GridPoint.lean ====
/-
  The grid of the attention kernel, by coordinates.

  The kernel runs over a grid of 2 × 2 × 4 = 16 points (batch, head group, query tile), the query tile innermost: point
  number `t = b · 8 + hg · 4 + qi`. A head group is eight heads, that is 512 of the 1024 embedding columns; a query tile is
  512 of the 2048 positions. The four points of one (batch, head group) share the projected keys and values, which the
  first of them, `grp t`, computes.
-/
import proofs.«422591_j53541062312519_3_alg».proof.Proof.Gen.KernelIdeal.Launch
import proofs.«422591_j53541062312519_3_alg».proof.Proof.Attention

noncomputable section

namespace Cert.Attn

open Idealize.ShloMosaic Cert.KernelIdeal Cert.KernelIdeal.Gen

theorem nPoints : cfg0.N = 16 := N_0

/-- The batch of grid point `t`. -/
def tb (t : Fin cfg0.N) : Fin 2 := ⟨t.val / 8, by have := lt_of_lt_of_eq t.isLt nPoints; omega⟩
/-- The head group of grid point `t`. -/
def thg (t : Fin cfg0.N) : Fin 2 := ⟨t.val / 4 % 2, by omega⟩
/-- The query tile of grid point `t`. -/
def tqi (t : Fin cfg0.N) : Fin 4 := ⟨t.val % 4, by omega⟩
/-- The query position of row `r` of `t`'s tile. -/
def qpos (t : Fin cfg0.N) (r : Fin 512) : Fin 2048 :=
  ⟨(tqi t).val * 512 + r.val, by have := (tqi t).isLt; have := r.isLt; omega⟩
/-- The embedding column of column `j` of `t`'s head group. -/
def gcol (t : Fin cfg0.N) (j : Fin 512) : Fin 1024 :=
  ⟨(thg t).val * 512 + j.val, by have := (thg t).isLt; have := j.isLt; omega⟩
/-- Head `g` of `t`'s head group among the sixteen heads. -/
def hd (t : Fin cfg0.N) (g : Fin 8) : Fin 16 :=
  ⟨(thg t).val * 8 + g.val, by have := (thg t).isLt; have := g.isLt; omega⟩
/-- The first point of `t`'s (batch, head group). -/
def grp (t : Fin cfg0.N) : Fin cfg0.N :=
  ⟨4 * (t.val / 4), by have := lt_of_lt_of_eq t.isLt nPoints; exact lt_of_lt_of_eq (by omega : 4 * (t.val / 4) < 16) nPoints.symm⟩

theorem grp_val (t : Fin cfg0.N) : (grp t).val = 4 * (t.val / 4) := rfl

theorem grp_of_first (t : Fin cfg0.N) (h : t.val % 4 = 0) : grp t = t := Fin.ext (by rw [grp_val]; omega)

theorem grp_pred (t : Fin cfg0.N) (h : ¬ t.val % 4 = 0) (h' : t.val - 1 < cfg0.N) : grp ⟨t.val - 1, h'⟩ = grp t :=
  Fin.ext (by rw [grp_val, grp_val]; show 4 * ((t.val - 1) / 4) = 4 * (t.val / 4); omega)

theorem tb_grp (t : Fin cfg0.N) : tb (grp t) = tb t := Fin.ext (by show 4 * (t.val / 4) / 8 = t.val / 8; omega)
theorem thg_grp (t : Fin cfg0.N) : thg (grp t) = thg t := Fin.ext (by show 4 * (t.val / 4) / 4 % 2 = t.val / 4 % 2; omega)
theorem gcol_grp (t : Fin cfg0.N) (j : Fin 512) : gcol (grp t) j = gcol t j :=
  Fin.ext (by show (thg (grp t)).val * 512 + j.val = (thg t).val * 512 + j.val; rw [thg_grp])

/-- Column `lane g d` of the head group is feature `d` of head `hd t g`. -/
theorem gcol_lane (t : Fin cfg0.N) (g : Fin 8) (d : Fin 64) : gcol t (lane g d) = feat (hd t g) d :=
  Fin.ext (by show (thg t).val * 512 + (g.val * 64 + d.val) = ((thg t).val * 8 + g.val) * 64 + d.val; ring)

end Cert.Attn

end
-- ==== Proof.ScratchCarry.lean ====
/-
  What the kernel's grid points leave behind, for every point.

  The sixteen grid points come in groups of four consecutive points, one group per (batch, head group); a group's first
  point (its number a multiple of four) fills the two scratch arrays with the projected keys and the projected values of
  the group's key and value blocks, and the other three points store nothing into them. So after any point the scratch
  arrays hold the projections of the blocks of the FIRST point of that point's group: at a first point by what that point
  stores, at any other point because the point before it, which is in the same group, left them so (induction on the
  point's number). The output tile of a point is then the four stores over the point's own query, mask, weight and bias
  blocks and those two projections: at a first point the scratch it reads is what it has just written, at the others what
  the point before left.
-/
import proofs.«422591_j53541062312519_3_alg».proof.Proof.Pieces
import proofs.«422591_j53541062312519_3_alg».proof.Proof.GridPoint
import proofs.«422591_j53541062312519_3_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Attn (grp grp_of_first grp_pred)

variable (m : (ℓ : Loc nD τ sig) → Buf (Elt F) ℓ)

/-! ## One point -/

/-- A group's first point leaves the key scratch at the projection of its own key block. -/
theorem kscr_first (c : Dev nD) (t : Fin cfg0.N) (h0 : t.val % 4 = 0) :
    (outsAt0 m c t.val t.isLt).2.1 = k0_pay2 (iblk m c 1 t) (iblk m c 6 t) (iblk m c 7 t) := by
  rw [outsAt0_A m c t h0]
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- … and the value scratch at the projection of its own value block. -/
theorem vscr_first (c : Dev nD) (t : Fin cfg0.N) (h0 : t.val % 4 = 0) :
    (outsAt0 m c t.val t.isLt).2.2 = k0_pay3 (iblk m c 2 t) (iblk m c 8 t) (iblk m c 9 t) := by
  rw [outsAt0_A m c t h0]
  dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- Any other point leaves the key scratch as the point before it left it. -/
theorem kscr_carry (c : Dev nD) (t : Fin cfg0.N) (h0 : ¬t.val % 4 = 0) :
    (outsAt0 m c t.val t.isLt).2.1 = (outsAt0 m c (t.val - 1) (Nat.lt_of_le_of_lt (Nat.sub_le _ _) t.isLt)).2.1 := by
  rw [outsAt0_B m c t h0]
  rfl

/-- … and the value scratch likewise. -/
theorem vscr_carry (c : Dev nD) (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]
  rfl

/-! ## Every point, by induction on its number -/

/-- After any point the key scratch holds the projection of the key block of the group's first point. -/
theorem kscr_eq (c : Dev nD) (t : Fin cfg0.N) :
    (outsAt0 m c t.val t.isLt).2.1 = k0_pay2 (iblk m c 1 (grp t)) (iblk m c 6 (grp t)) (iblk m c 7 (grp t)) := by
  obtain ⟨n, hn⟩ := t
  induction n with
  | zero =>
    have h0 : (⟨0, hn⟩ : Fin cfg0.N).val % 4 = 0 := Nat.zero_mod 4
    rw [kscr_first m c ⟨0, hn⟩ h0, grp_of_first ⟨0, hn⟩ h0]
  | succ n ih =>
    by_cases h0 : (n + 1) % 4 = 0
    · rw [kscr_first m c ⟨n + 1, hn⟩ h0, grp_of_first ⟨n + 1, hn⟩ h0]
    · rw [kscr_carry m c ⟨n + 1, hn⟩ h0, ← grp_pred ⟨n + 1, hn⟩ h0 (Nat.lt_of_le_of_lt (Nat.sub_le _ _) hn)]
      exact ih (Nat.lt_of_succ_lt hn)

/-- After any point the value scratch holds the projection of the value block of the group's first point. -/
theorem vscr_eq (c : Dev nD) (t : Fin cfg0.N) :
    (outsAt0 m c t.val t.isLt).2.2 = k0_pay3 (iblk m c 2 (grp t)) (iblk m c 8 (grp t)) (iblk m c 9 (grp t)) := by
  obtain ⟨n, hn⟩ := t
  induction n with
  | zero =>
    have h0 : (⟨0, hn⟩ : Fin cfg0.N).val % 4 = 0 := Nat.zero_mod 4
    rw [vscr_first m c ⟨0, hn⟩ h0, grp_of_first ⟨0, hn⟩ h0]
  | succ n ih =>
    by_cases h0 : (n + 1) % 4 = 0
    · rw [vscr_first m c ⟨n + 1, hn⟩ h0, grp_of_first ⟨n + 1, hn⟩ h0]
    · rw [vscr_carry m c ⟨n + 1, hn⟩ h0, ← grp_pred ⟨n + 1, hn⟩ h0 (Nat.lt_of_le_of_lt (Nat.sub_le _ _) hn)]
      exact ih (Nat.lt_of_succ_lt hn)

/-! ## The output tile -/

/-- After any point the output tile holds the four stores over the point's own query, mask, query weight and bias
    blocks and the projections of the key and value blocks of the group's first point. -/
theorem out_eq (c : Dev nD) (t : Fin cfg0.N) :
    (outsAt0 m c t.val t.isLt).1 = View.canon (outStores (iblk m c 0 t) (iblk m c 3 t) (iblk m c 4 t) (iblk m c 5 t)
      (k0_pay2 (iblk m c 1 (grp t)) (iblk m c 6 (grp t)) (iblk m c 7 (grp t)))
      (k0_pay3 (iblk m c 2 (grp t)) (iblk m c 8 (grp t)) (iblk m c 9 (grp t)))) := by
  by_cases h0 : t.val % 4 = 0
  · rw [outsAt0_A m c t h0, grp_of_first t h0]
    dsimp only
    exact out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)
  · have hp : t.val - 1 < cfg0.N := Nat.lt_of_le_of_lt (Nat.sub_le _ _) t.isLt
    rw [outsAt0_B m c t h0]
    dsimp only
    rw [out0_B_10_eq, kscr_eq m c ⟨t.val - 1, hp⟩, vscr_eq m c ⟨t.val - 1, hp⟩, grp_pred t h0 hp]

end Cert.KernelIdeal.Gen

end
-- ==== Proof.HeadDef.lean ====
/-
  One head's attention on a tile of 512 query rows, as the kernel body spells it on whole vectors.

  `headVec qd kd vd mk` takes the tile's projected queries for the head (512 × 64), the head's projected keys and
  values (2048 × 64 each) and the tile's mask words (512 × 2048): the scores are `qd · kdᵀ` times one eighth, replaced by
  the fill value where the mask word is zero; each row is shifted by its maximum, exponentiated and divided by the row's
  sum; the result is the product of those weights with `vd` (512 × 64).
-/
import proofs.«422591_j53541062312519_3_alg».proof.Proof.Gen.KernelIdeal
import proofs.«422591_j53541062312519_3_alg».proof.Proof.Attention

noncomputable section

namespace Cert.Attn

open Idealize.ShloMosaic Idealize.SL.Sem Cert.KernelIdeal Cert.KernelIdeal.Gen

variable {F : FTy → Type} [FloatOps F]

/-- One head's attention on a tile of query rows, on whole vectors. -/
def headVec (qd : FVec F S512x64 .bf16) (kd vd : Vec F S2048x64 .bf16) (mk : IVec S512x2048 32) : FVec F S512x64 .f32 :=
  have kt : FVec F S64x2048 .bf16 := transpose S64x2048 [1, 0] kd transposes_S2048x64_p1_0_S64x2048
  have sc : FVec F S512x2048 .f32 :=
    mulf (matmul dot_S512x64_S64x2048_S512x2048_1_0_0_1_n_n none qd kt (constant S512x2048 .f32 0x00000000#32))
      (broadcast S512x2048 (Scalar.ofBits .f32 0x3E000000#32))
  have s : FVec F S512x2048 .f32 :=
    select (cmpi .eq mk (broadcast S512x2048 0#32)) (broadcast S512x2048 (Scalar.ofBits .f32 0xE0AD78EC#32)) sc
  have mx : FVec F S512 .f32 := multiReduction .maximumf [1] S512 s 0xFF800000#32 reduces_S512x2048_S512 (.inl rfl) rfl
  have ex : FVec F S512x2048 .f32 :=
    exp (subf s (broadcastTo S512x2048 (shapeCast S512x1 mx shapeCasts_S512_S512x1) broadcasts_S512x1_S512x2048))
  have z : FVec F S512 .f32 := multiReduction .add [1] S512 ex 0x00000000#32 reduces_S512x2048_S512 (.inl rfl) rfl
  have p : FVec F S512x2048 .f32 :=
    divf ex (broadcastTo S512x2048 (shapeCast S512x1 z shapeCasts_S512_S512x1) broadcasts_S512x1_S512x2048)
  matmul dot_S512x2048_S2048x64_S512x64_1_0_0_1_n_n none (truncf .bf16 p bitsLt_bf16_f32) vd (constant S512x64 .f32 0x00000000#32)

end Cert.Attn

end
-- ==== Proof.PairStores.lean ====
/-
  Each of the four stores into the output tile is two heads' attention side by side.

  The body computes, for the head pair (2p, 2p + 1), the two heads' outputs on the tile's 512 query rows and stores their
  concatenation along the feature axis as one piece of 128 features. Spelled on whole vectors, every head's output is
  the same function `headVec` of the head's 64 query columns, its 64 key columns, its 64 value columns and the tile's
  mask words; the four equations below say so for the four stores, by unfolding the body's definitions.
-/
import proofs.«422591_j53541062312519_3_alg».proof.Proof.Gen.KernelIdeal.Skeleton
import proofs.«422591_j53541062312519_3_alg».proof.Proof.HeadDef

noncomputable section

namespace Cert.KernelIdeal.Gen

open Idealize.ShloMosaic Idealize.SL.Sem Cert.Attn

variable {F : FTy → Type} [FloatOps F]

/-- Two heads' outputs on a tile (512 × 64 each) side by side, with the leading unit axis of the stored piece. -/
def pairVec (h0 h1 : FVec F S512x64 .f32) : FVec F S1x512x128 .f32 :=
  shapeCast S1x512x128
    (concatenate S512x128 1 [⟨S512x64, h0⟩, ⟨S512x64, h1⟩] concatenates_S512x64_S512x64_S512x128_d1)
    shapeCasts_S512x128_S1x512x128

variable (x0 : Vec F S1x512x512 .f32) (x3 : Vec F S512x2048 .i32) (x4 : Vec F S512x512 .f32) (x5 : Vec F S1x512 .f32)
  (qp : FVec F S512x512 .bf16) (mk : IVec S512x2048 32) (k0 v0 k1 v1 : Vec F S2048x64 .bf16)

/-- Heads 0 and 1. -/
theorem store0_eq :
    k0_pay8 (k0_pay4 x0 x4 x5) (k0_pay5 x3) v0 (k0_pay6 x0 x4 x5 x3 k0) (k0_pay7 x0 x4 x5 x3 k0) k1 v1
      = pairVec (headVec (extractStridedSlice S512x64 ![0, 0] (k0_pay4 x0 x4 x5) slices_S512x512_o0_0_S512x64) k0 v0 (k0_pay5 x3))
          (headVec (extractStridedSlice S512x64 ![0, 64] (k0_pay4 x0 x4 x5) slices_S512x512_o0_64_S512x64) k1 v1 (k0_pay5 x3)) := rfl

/-- Heads 2 and 3. -/
theorem store1_eq :
    k0_pay11 qp mk v0 (k0_pay9 qp k0) k0_pay10 k1 v1
      = pairVec (headVec (extractStridedSlice S512x64 ![0, 128] qp slices_S512x512_o0_128_S512x64) k0 v0 mk) (headVec (extractStridedSlice S512x64 ![0, 192] qp slices_S512x512_o0_192_S512x64) k1 v1 mk) := rfl

/-- Heads 4 and 5. -/
theorem store2_eq :
    k0_pay16 (k0_pay13 mk (k0_pay12 qp) k0 v0) v1 (k0_pay14 qp mk k1) (k0_pay15 qp mk k1)
      = pairVec (headVec (extractStridedSlice S512x64 ![0, 256] qp slices_S512x512_o0_256_S512x64) k0 v0 mk) (headVec (extractStridedSlice S512x64 ![0, 320] qp slices_S512x512_o0_320_S512x64) k1 v1 mk) := rfl

/-- Heads 6 and 7. -/
theorem store3_eq :
    k0_pay1 mk (k0_pay17 qp mk k0 v0) v1 (k0_pay18 qp k1) 0#32
      = pairVec (headVec (extractStridedSlice S512x64 ![0, 384] qp slices_S512x512_o0_384_S512x64) k0 v0 mk) (headVec (extractStridedSlice S512x64 ![0, 448] qp slices_S512x512_o0_448_S512x64) k1 v1 mk) := rfl

end Cert.KernelIdeal.Gen

end
-- ==== Proof.HeadValue.lean ====
/-
  One head's attention on a tile of 512 query rows, read at one entry of the result.

  The whole-vector head takes the tile's projected queries (512 × 64), the head's projected keys and values
  (2048 × 64 each) and the tile's mask words (512 × 2048). Entry (r, e) of its result depends on row r of the queries,
  on row r of the mask words and on all the keys and values, and it is the row function of the specification: the
  masked, scaled scores of query row r against every key row, turned into softmax weights (each score shifted by the
  row's maximum, exponentiated, divided by the row's sum of exponentials), and the sum over the key rows of weight times
  feature e of the value row.

  The steps. A product of two matrices into a zero accumulator is, at (r, c), the sum over the one contracted axis of
  the products of the left operand at (r, d) and the right at (d, c); a transposed matrix at (d, k) is the matrix at
  (k, d). A reduction along axis 1 of a 512 × 2048 array is, at row r, the sum (or the maximum from minus infinity)
  over the 2048 entries of row r. A vector of 512 row values cast to a 512 × 1 column and then spread over 2048 columns
  reads, at (r, k), the value of row r. Everything else acts entry by entry.
-/
import proofs.«422591_j53541062312519_3_alg».proof.Proof.HeadDef
import Idealize.ShloMosaic.Lib.ValueLayout
import Idealize.ShloMosaic.Lib.ValueIdx
import Idealize.ShloMosaic.PureOps.Ideal.Laws

noncomputable section

namespace Cert.Attn

open Idealize.ShloMosaic Idealize.SL.Sem Cert.KernelIdeal Cert.KernelIdeal.Gen Idealize.ShloMosaic.ValueIdx

/-! ## A column of row values: `[a] → [a, 1] → [a, b]` -/

section Column
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of 512 row values made a column and spread over 2048 columns reads, at `(r, k)`, the value of row `r`. -/
theorem column_apply (m : S512.Idx → α) (r : Fin 512) (k : Fin 2048) :
    broadcastTo S512x2048 (shapeCast S512x1 m shapeCasts_S512_S512x1) broadcasts_S512x1_S512x2048 (ix2 r k) = m (ix1 r) :=
  (broadcastTo_a1_ab_apply _ broadcasts_S512x1_S512x2048 r k).trans (shapeCast_a_a1_apply m shapeCasts_S512_S512x1 r 0)

end Column

/-! ## The two matrix products read at an index -/

/-- Scores: on the left operand's row axis the operand index carries the result's row. -/
theorem lhs_qk_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
/-- On the left operand's column axis it carries the contraction coordinate. -/
theorem lhs_qk_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
/-- On the right operand's row axis it carries the contraction coordinate. -/
theorem rhs_qk_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
/-- On the right operand's column axis it carries the result's column. -/
theorem rhs_qk_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- The 512 × 64 by 64 × 2048 product into a zero accumulator, at `(r, k)`: the sum over the 64 contracted features. -/
theorem qk_apply (x : FVec Ideal S512x64 .bf16) (y : FVec Ideal S64x2048 .bf16) (r : Fin 512) (k : Fin 2048) :
    matmul dot_S512x64_S64x2048_S512x2048_1_0_0_1_n_n none x y (constant (F := Ideal) S512x2048 .f32 0x00000000#32) (ix2 r k)
      = ∑ d : Fin 64, x (ix2 r d) * y (ix2 d k) := by
  simp only [matmul]
  rw [Ideal.matmul_constant_zero_apply,
    ← Equiv.sum_comp (contrEquiv1 dot_S512x64_S64x2048_S512x2048_1_0_0_1_n_n 64 rfl rfl).symm]
  refine Finset.sum_congr rfl fun d _ => ?_
  have hd := contrEquiv1_symm_val dot_S512x64_S64x2048_S512x2048_1_0_0_1_n_n 64 rfl rfl d
  have el : dot_S512x64_S64x2048_S512x2048_1_0_0_1_n_n.lhsIdx (ix2 r k)
      ((contrEquiv1 dot_S512x64_S64x2048_S512x2048_1_0_0_1_n_n 64 rfl rfl).symm d) = ix2 r d :=
    funext fun a => Fin.ext (by
      match a with
      | ⟨0, _⟩ => exact lhs_qk_0 _ _
      | ⟨1, _⟩ => exact (lhs_qk_1 _ _).trans hd)
  have er : dot_S512x64_S64x2048_S512x2048_1_0_0_1_n_n.rhsIdx (ix2 r k)
      ((contrEquiv1 dot_S512x64_S64x2048_S512x2048_1_0_0_1_n_n 64 rfl rfl).symm d) = ix2 d k :=
    funext fun a => Fin.ext (by
      match a with
      | ⟨0, _⟩ => exact (rhs_qk_0 _ _).trans hd
      | ⟨1, _⟩ => exact rhs_qk_1 _ _)
  rw [el, er]

/-- Weighted values: on the left operand's row axis the operand index carries the result's row. -/
theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
/-- On the left operand's column axis it carries the contraction coordinate. -/
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- On the right operand's row axis it carries the contraction coordinate. -/
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- On the right operand's column axis it carries the result's column. -/
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The 512 × 2048 by 2048 × 64 product into a zero accumulator, at `(r, e)`: the sum over the 2048 contracted rows. -/
theorem pv_apply (x : FVec Ideal S512x2048 .bf16) (y : FVec Ideal S2048x64 .bf16) (r : Fin 512) (e : Fin 64) :
    matmul dot_S512x2048_S2048x64_S512x64_1_0_0_1_n_n none x y (constant (F := Ideal) S512x64 .f32 0x00000000#32) (ix2 r e)
      = ∑ k : Fin 2048, x (ix2 r k) * y (ix2 k e) := by
  simp only [matmul]
  rw [Ideal.matmul_constant_zero_apply,
    ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r e)
      ((contrEquiv1 dot_S512x2048_S2048x64_S512x64_1_0_0_1_n_n 2048 rfl rfl).symm k) = ix2 r k :=
    funext fun a => Fin.ext (by
      match a with
      | ⟨0, _⟩ => exact lhs_pv_0 _ _
      | ⟨1, _⟩ => exact (lhs_pv_1 _ _).trans hk)
  have er : dot_S512x2048_S2048x64_S512x64_1_0_0_1_n_n.rhsIdx (ix2 r e)
      ((contrEquiv1 dot_S512x2048_S2048x64_S512x64_1_0_0_1_n_n 2048 rfl rfl).symm k) = ix2 k e :=
    funext fun a => Fin.ext (by
      match a with
      | ⟨0, _⟩ => exact (rhs_pv_0 _ _).trans hk
      | ⟨1, _⟩ => exact rhs_pv_1 _ _)
  rw [el, er]

/-! ## The two reductions along a row -/

/-- The source index over row `r` with column `k` put back is `(r, k)`. -/
theorem lift_row (r : Fin 512) (k : Fin 2048) : reduces_S512x2048_S512.lift (ix1 r) k = ix2 r k :=
  funext fun a => Fin.ext (by
    match a with
    | ⟨0, _⟩ => rfl
    | ⟨1, _⟩ => rfl)

/-- The sum along axis 1, at row `r`: the sum of the row's 2048 entries. -/
theorem rowSum_apply (src : FVec Ideal S512x2048 .f32) (hφ : FKind.Formats .f32)
    (hacc : (0x00000000#32 : BitVec 32) = 0x00000000#32) (r : Fin 512) :
    multiReduction (F := Ideal) .add [1] S512 src 0x00000000#32 reduces_S512x2048_S512 hφ hacc (ix1 r)
      = ∑ k : Fin 2048, src (ix2 r k) := by
  refine (Ideal.multiReduction_add_single src 0x00000000#32 reduces_S512x2048_S512 hφ hacc (ix1 r)).trans ?_
  show ∑ k : Fin 2048, src (reduces_S512x2048_S512.lift (ix1 r) k) = _
  exact Finset.sum_congr rfl fun k _ => congrArg src (lift_row r k)

/-- The maximum along axis 1 from the word of minus infinity, at row `r`: the largest of the row's 2048 entries. -/
theorem rowMax_apply (src : FVec Ideal S512x2048 .f32) (hφ : FKind.Formats .f32)
    (hacc : (0xFF800000#32 : BitVec 32) = 0xFF800000#32) (r : Fin 512) :
    multiReduction (F := Ideal) .maximumf [1] S512 src 0xFF800000#32 reduces_S512x2048_S512 hφ hacc (ix1 r)
      = rowMax (fun k => src (ix2 r k)) := by
  refine (Ideal.multiReduction_maximumf_single src 0xFF800000#32 reduces_S512x2048_S512 hφ hacc (ix1 r)).trans ?_
  show (Finset.univ : Finset (Fin 2048)).fold max negInf (src ∘ reduces_S512x2048_S512.lift (ix1 r)) = _
  unfold rowMax
  exact congrArg (fun f => (Finset.univ : Finset (Fin 2048)).fold max negInf f) (funext fun k => congrArg src (lift_row r k))

/-! ## The stages of the head on whole vectors, each read at an index -/

/-- A select on "the word is zero" is the `if` on it. -/
theorem select_eq_zero {α : Type} (x : BitVec 32) (a b : α) :
    Scalar.select (IntOp.cmpi .eq x 0#32) a b = if x = 0#32 then a else b := by
  by_cases h : x = 0#32
  · rw [if_pos h, h]; rfl
  · rw [if_neg h]
    have hc : IntOp.cmpi .eq x 0#32 = 0#1 := by
      show BitVec.ofBool (x == 0#32) = 0#1
      rw [beq_eq_false_iff_ne.mpr h]; rfl
    rw [hc]; exact select_zero a b

/-- The masked, scaled scores of the tile's query rows against the head's key rows. -/
def scoreVec (qd : FVec Ideal S512x64 .bf16) (kd : FVec Ideal S2048x64 .bf16) (mk : IVec S512x2048 32) : FVec Ideal S512x2048 .f32 :=
  select (cmpi .eq mk (broadcast S512x2048 0#32)) (broadcast S512x2048 (Scalar.ofBits (F := Ideal) .f32 0xE0AD78EC#32))
    (mulf (matmul dot_S512x64_S64x2048_S512x2048_1_0_0_1_n_n none qd
        (transpose S64x2048 [1, 0] kd transposes_S2048x64_p1_0_S64x2048) (constant (F := Ideal) S512x2048 .f32 0x00000000#32))
      (broadcast S512x2048 (Scalar.ofBits (F := Ideal) .f32 0x3E000000#32)))

/-- Each score minus its row's maximum, exponentiated. -/
def expVec (s : FVec Ideal S512x2048 .f32) : FVec Ideal S512x2048 .f32 :=
  exp (subf s (broadcastTo S512x2048
    (shapeCast S512x1 (multiReduction (F := Ideal) .maximumf [1] S512 s 0xFF800000#32 reduces_S512x2048_S512 (.inl rfl) rfl)
      shapeCasts_S512_S512x1) broadcasts_S512x1_S512x2048))

/-- Each exponential divided by its row's sum. -/
def weightVec (ex : FVec Ideal S512x2048 .f32) : FVec Ideal S512x2048 .f32 :=
  divf ex (broadcastTo S512x2048
    (shapeCast S512x1 (multiReduction (F := Ideal) .add [1] S512 ex 0x00000000#32 reduces_S512x2048_S512 (.inl rfl) rfl)
      shapeCasts_S512_S512x1) broadcasts_S512x1_S512x2048)

/-- The head is the product of the weights, narrowed to the values' format, with the values. -/
theorem headVec_eq (qd : FVec Ideal S512x64 .bf16) (kd vd : FVec Ideal S2048x64 .bf16) (mk : IVec S512x2048 32) :
    headVec (F := Ideal) qd kd vd mk
      = matmul dot_S512x2048_S2048x64_S512x64_1_0_0_1_n_n none
          (truncf .bf16 (weightVec (expVec (scoreVec qd kd mk))) bitsLt_bf16_f32) vd
          (constant (F := Ideal) S512x64 .f32 0x00000000#32) := rfl

/-- The scores at `(r, k)`: the specification's score of query row `r` against key row `k`. -/
theorem scoreVec_apply (qd : FVec Ideal S512x64 .bf16) (kd : FVec Ideal S2048x64 .bf16) (mk : IVec S512x2048 32)
    (r : Fin 512) (k : Fin 2048) :
    scoreVec qd kd mk (ix2 r k)
      = score (fun d => qd (ix2 r d)) (fun k d => kd (ix2 k d)) (fun k => mk (ix2 r k)) k := by
  unfold scoreVec score
  rw [select_apply, mulf_apply, qk_apply]
  show Scalar.select (IntOp.cmpi .eq (mk (ix2 r k)) 0#32) fillValue
      ((∑ d : Fin 64, qd (ix2 r d) * transpose S64x2048 [1, 0] kd transposes_S2048x64_p1_0_S64x2048 (ix2 d k)) * eighth) = _
  rw [select_eq_zero]
  congr 2
  exact Finset.sum_congr rfl fun d _ => congrArg (qd (ix2 r d) * ·) (transpose_ix2_apply kd transposes_S2048x64_p1_0_S64x2048 d k)

/-- The exponentials at `(r, k)`. -/
theorem expVec_apply (s : FVec Ideal S512x2048 .f32) (r : Fin 512) (k : Fin 2048) :
    expVec s (ix2 r k) = expo (fun k => s (ix2 r k)) k := by
  unfold expVec expo
  show Ideal.exp (s (ix2 r k) - broadcastTo S512x2048 (shapeCast S512x1 _ shapeCasts_S512_S512x1) broadcasts_S512x1_S512x2048 (ix2 r k)) = _
  rw [column_apply, rowMax_apply]

/-- The weights at `(r, k)`. -/
theorem weightVec_apply (s : FVec Ideal S512x2048 .f32) (r : Fin 512) (k : Fin 2048) :
    weightVec (expVec s) (ix2 r k) = weight (fun k => s (ix2 r k)) k := by
  unfold weightVec weight
  rw [divf_apply, column_apply, rowSum_apply, expVec_apply]
  exact congrArg (Ideal.div _) (Finset.sum_congr rfl fun k' _ => expVec_apply s r k')

/-- THE HEAD AT `(r, e)`: the specification's row function of query row `r`, all key and value rows and mask row `r`. -/
theorem headVec_apply (qd : FVec Ideal S512x64 .bf16) (kd vd : Vec Ideal S2048x64 .bf16) (mk : IVec S512x2048 32)
    (r : Fin 512) (e : Fin 64) :
    headVec (F := Ideal) qd kd vd mk (ix2 r e)
      = headRow (fun d => qd (ix2 r d)) (fun k d => kd (ix2 k d)) (fun k d => vd (ix2 k d)) (fun k => mk (ix2 r k)) e := by
  rw [headVec_eq, pv_apply]
  unfold headRow
  refine Finset.sum_congr rfl fun k _ => ?_
  rw [truncf_apply, weightVec_apply]
  exact congrArg (fun w => weight w k * vd (ix2 k e)) (funext fun k' => scoreVec_apply qd kd mk r k')

end Cert.Attn

end
-- ==== Proof.ProjLayer.lean ====
/-
  The three linear layers of the kernel, read one entry at a time.

  One grid point of the kernel handles eight heads at once: a row of its block carries the 64 features of each of the
  eight heads side by side, 512 columns in all, column `g * 64 + d` being feature `d` of head `g`. The kernel applies
  the shared 64 × 64 layer `x ↦ x Wᵀ + b` to all eight heads with ONE product by a 512 × 512 weight block that is block
  diagonal — its entry (k, j) is `W (j % 64) (k % 64)` when k and j lie in the same head and zero otherwise — and one
  bias row of 512 entries that repeats `b` eight times.

  This module proves (1) the algebra: a sum over the 512 columns against such a block-diagonal column collapses to the
  sum over the 64 features of the one head the column belongs to, because every term of another head is a product with
  zero; (2) each of the three payloads (queries, keys, values) read at (row r, column j) is the row's 512 entries times
  column j of the weight block, summed, plus entry j of the bias row — the shape changes and the narrowing to the
  16-bit format being the identity on the extended reals; and (3) the two together: under the block-diagonal and tiling
  hypotheses the payload at (r, column `e` of head `g`) is the head's linear layer applied to the row's 64 features
  of head `g`, at output feature `e`.
-/
import proofs.«422591_j53541062312519_3_alg».proof.Proof.Gen.KernelIdeal.Skeleton
import proofs.«422591_j53541062312519_3_alg».proof.Proof.Attention
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic
import Mathlib.Data.Fintype.BigOperators

noncomputable section

namespace Cert.Attn

open Idealize.ShloMosaic Idealize.ShloMosaic.ValueIdx Cert.KernelIdeal Cert.KernelIdeal.Gen

/-! ## Eight heads of 64 columns -/

/-- Column `g * 64 + d` lies in head `g` … -/
theorem lane_div (g : Fin 8) (d : Fin 64) : (lane g d).val / 64 = g.val := by
  show (g.val * 64 + d.val) / 64 = g.val
  have := d.isLt; omega

/-- … and is its feature `d`. -/
theorem lane_mod (g : Fin 8) (d : Fin 64) : (⟨(lane g d).val % 64, Nat.mod_lt _ (by norm_num)⟩ : Fin 64) = d :=
  Fin.ext (by show (g.val * 64 + d.val) % 64 = d.val; have := d.isLt; omega)

/-- The 512 columns are the pairs (head, feature). -/
def laneEquiv : Fin 8 × Fin 64 ≃ Fin 512 where
  toFun p := lane p.1 p.2
  invFun k := (⟨k.val / 64, by have := k.isLt; omega⟩, ⟨k.val % 64, Nat.mod_lt _ (by norm_num)⟩)
  left_inv p := Prod.ext (Fin.ext (lane_div p.1 p.2)) (lane_mod p.1 p.2)
  right_inv k := Fin.ext (by show k.val / 64 * 64 + k.val % 64 = k.val; omega)

/-- A sum over the 512 columns is the sum over the heads of the sums over each head's 64 features. -/
theorem sum_lanes (f : Fin 512 → EReal) : ∑ k : Fin 512, f k = ∑ h : Fin 8, ∑ d : Fin 64, f (lane h d) := by
  rw [← Equiv.sum_comp laneEquiv f, Fintype.sum_prod_type]
  rfl

/-- Against a block-diagonal column only the column's own head contributes: the terms of another head are products with
    zero, and in the head itself the factor one drops out. -/
theorem sum_blockdiag (x : Fin 512 → EReal) (W : Fin 64 → Fin 64 → EReal) (g : Fin 8) (e : Fin 64) :
    ∑ k : Fin 512, x k * ((if k.val / 64 = g.val then (1 : EReal) else 0) * W e ⟨k.val % 64, Nat.mod_lt _ (by norm_num)⟩)
      = ∑ d : Fin 64, x (lane g d) * W e d := by
  refine (sum_lanes _).trans ((Fintype.sum_eq_single g fun h hne => ?_).trans ?_)
  · refine Finset.sum_eq_zero fun d _ => ?_
    have h1 : ¬(lane h d).val / 64 = g.val := by
      rw [lane_div]; exact fun hv => hne (Fin.ext hv)
    show x (lane h d) * ((if (lane h d).val / 64 = g.val then (1 : EReal) else 0) * W e _) = 0
    rw [if_neg h1, zero_mul, mul_zero]
  · refine Finset.sum_congr rfl fun d _ => ?_
    show x (lane g d) * ((if (lane g d).val / 64 = g.val then (1 : EReal) else 0) * W e ⟨(lane g d).val % 64, Nat.mod_lt _ (by norm_num)⟩) = _
    rw [if_pos (lane_div g d), one_mul, lane_mod]

/-! ## The product's operand indices, axis by axis -/

/-- The left operand's row is the result's row. -/
theorem lhs_512_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- The left operand's column is the contraction position. -/
theorem lhs_512_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- The right operand's row is the contraction position. -/
theorem rhs_512_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- The right operand's column is the result's column. -/
theorem rhs_512_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The left operand's row is the result's row. -/
theorem lhs_2048_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column is the contraction position. -/
theorem lhs_2048_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- The right operand's row is the contraction position. -/
theorem rhs_2048_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- The right operand's column is the result's column. -/
theorem rhs_2048_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-! ## The product read at an entry -/

/-- The product of an [512, 512] block with a [512, 512] block, accumulated into zero, read at (r, j):
    the sum over the 512 contraction positions of the row's entry times the column's entry. -/
theorem matmul_512_apply (a : FVec Ideal S512x512 .f32) (c : FVec Ideal S512x512 .f32) (r : Fin 512) (j : Fin 512) :
    matmul dot_S512x512_S512x512_S512x512_1_0_0_1_n_n none a c (constant (F := Ideal) S512x512 .f32 0x00000000#32) (ix2 r j)
      = ∑ k : Fin 512, a (ix2 r k) * c (ix2 k j) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r j) ((contrEquiv1 dot_S512x512_S512x512_S512x512_1_0_0_1_n_n 512 rfl rfl).symm k) = ix2 r k := funext fun ax => Fin.ext (by
    match ax with
    | ⟨0, _⟩ => exact lhs_512_0 _ _
    | ⟨1, _⟩ => exact (lhs_512_1 _ _).trans hk)
  have er : dot_S512x512_S512x512_S512x512_1_0_0_1_n_n.rhsIdx (ix2 r j) ((contrEquiv1 dot_S512x512_S512x512_S512x512_1_0_0_1_n_n 512 rfl rfl).symm k) = ix2 k j := funext fun ax => Fin.ext (by
    match ax with
    | ⟨0, _⟩ => exact (rhs_512_0 _ _).trans hk
    | ⟨1, _⟩ => exact rhs_512_1 _ _)
  rw [el, er]

/-- The product of an [2048, 512] block with a [512, 512] block, accumulated into zero, read at (r, j):
    the sum over the 512 contraction positions of the row's entry times the column's entry. -/
theorem matmul_2048_apply (a : FVec Ideal S2048x512 .f32) (c : FVec Ideal S512x512 .f32) (r : Fin 2048) (j : Fin 512) :
    matmul dot_S2048x512_S512x512_S2048x512_1_0_0_1_n_n none a c (constant (F := Ideal) S2048x512 .f32 0x00000000#32) (ix2 r j)
      = ∑ k : Fin 512, a (ix2 r k) * c (ix2 k j) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r j) ((contrEquiv1 dot_S2048x512_S512x512_S2048x512_1_0_0_1_n_n 512 rfl rfl).symm k) = ix2 r k := funext fun ax => Fin.ext (by
    match ax with
    | ⟨0, _⟩ => exact lhs_2048_0 _ _
    | ⟨1, _⟩ => exact (lhs_2048_1 _ _).trans hk)
  have er : dot_S2048x512_S512x512_S2048x512_1_0_0_1_n_n.rhsIdx (ix2 r j) ((contrEquiv1 dot_S2048x512_S512x512_S2048x512_1_0_0_1_n_n 512 rfl rfl).symm k) = ix2 k j := funext fun ax => Fin.ext (by
    match ax with
    | ⟨0, _⟩ => exact (rhs_2048_0 _ _).trans hk
    | ⟨1, _⟩ => exact rhs_2048_1 _ _)
  rw [el, er]

/-! ## The three payloads read at an entry -/

/-- The payload read at (r, j): the row of the loaded block times column j of the weight block, plus the bias's entry j. -/
theorem pay4_apply (x : Vec Ideal S1x512x512 .f32) (w : Vec Ideal S512x512 .f32) (b : Vec Ideal S1x512 .f32) (r : Fin 512) (j : Fin 512) :
    k0_pay4 (F := Ideal) x w b (ix2 r j) = (∑ k : Fin 512, x (ix3 0 r k) * w (ix2 k j)) + b (ix2 0 j) := by
  unfold k0_pay4
  simp only [truncf_apply, addf_apply, shapeCast_self]
  rw [matmul_512_apply, broadcastTo_1b_ab_apply]
  refine congrArg (· + b (ix2 0 j)) (Finset.sum_congr rfl fun k _ => ?_)
  rw [shapeCast_1ab_ab_apply]

/-- The payload read at (r, j): the row of the loaded block times column j of the weight block, plus the bias's entry j. -/
theorem pay2_apply (x : Vec Ideal S1x2048x512 .f32) (w : Vec Ideal S512x512 .f32) (b : Vec Ideal S1x512 .f32) (r : Fin 2048) (j : Fin 512) :
    k0_pay2 (F := Ideal) x w b (ix2 r j) = (∑ k : Fin 512, x (ix3 0 r k) * w (ix2 k j)) + b (ix2 0 j) := by
  unfold k0_pay2
  simp only [truncf_apply, addf_apply, shapeCast_self]
  rw [matmul_2048_apply, broadcastTo_1b_ab_apply]
  refine congrArg (· + b (ix2 0 j)) (Finset.sum_congr rfl fun k _ => ?_)
  rw [shapeCast_1ab_ab_apply]

/-- The payload read at (r, j): the row of the loaded block times column j of the weight block, plus the bias's entry j. -/
theorem pay3_apply (x : Vec Ideal S1x2048x512 .f32) (w : Vec Ideal S512x512 .f32) (b : Vec Ideal S1x512 .f32) (r : Fin 2048) (j : Fin 512) :
    k0_pay3 (F := Ideal) x w b (ix2 r j) = (∑ k : Fin 512, x (ix3 0 r k) * w (ix2 k j)) + b (ix2 0 j) := by
  unfold k0_pay3
  simp only [truncf_apply, addf_apply, shapeCast_self]
  rw [matmul_2048_apply, broadcastTo_1b_ab_apply]
  refine congrArg (· + b (ix2 0 j)) (Finset.sum_congr rfl fun k _ => ?_)
  rw [shapeCast_1ab_ab_apply]

/-! ## The payloads under the block-diagonal weight and the tiled bias -/

/-- The query payload at (r, column `e` of head `g`) is the head's linear layer on the row's features of head `g`. -/
theorem qproj_apply (x : Vec Ideal S1x512x512 .f32) (w : Vec Ideal S512x512 .f32) (b : Vec Ideal S1x512 .f32)
    (W : Fin 64 → Fin 64 → EReal) (bb : Fin 64 → EReal)
    (hw : ∀ k j : Fin 512, w (ix2 k j) = (if k.val / 64 = j.val / 64 then (1 : EReal) else 0) * W ⟨j.val % 64, Nat.mod_lt _ (by norm_num)⟩ ⟨k.val % 64, Nat.mod_lt _ (by norm_num)⟩)
    (hb : ∀ j : Fin 512, b (ix2 0 j) = bb ⟨j.val % 64, Nat.mod_lt _ (by norm_num)⟩) (r : Fin 512) (g : Fin 8) (e : Fin 64) :
    k0_pay4 (F := Ideal) x w b (ix2 r (lane g e)) = proj W bb (fun d => x (ix3 0 r (lane g d))) e := by
  rw [pay4_apply, hb (lane g e), lane_mod]
  show _ = (∑ d : Fin 64, x (ix3 0 r (lane g d)) * W e d) + bb e
  refine congrArg (· + bb e) ?_
  refine Eq.trans (Finset.sum_congr rfl fun k _ => ?_) (sum_blockdiag (fun k => x (ix3 0 r k)) W g e)
  rw [hw k (lane g e), lane_div, lane_mod]

/-- The key payload likewise, over the 2048 key rows. -/
theorem kproj_apply (x : Vec Ideal S1x2048x512 .f32) (w : Vec Ideal S512x512 .f32) (b : Vec Ideal S1x512 .f32)
    (W : Fin 64 → Fin 64 → EReal) (bb : Fin 64 → EReal)
    (hw : ∀ k j : Fin 512, w (ix2 k j) = (if k.val / 64 = j.val / 64 then (1 : EReal) else 0) * W ⟨j.val % 64, Nat.mod_lt _ (by norm_num)⟩ ⟨k.val % 64, Nat.mod_lt _ (by norm_num)⟩)
    (hb : ∀ j : Fin 512, b (ix2 0 j) = bb ⟨j.val % 64, Nat.mod_lt _ (by norm_num)⟩) (r : Fin 2048) (g : Fin 8) (e : Fin 64) :
    k0_pay2 (F := Ideal) x w b (ix2 r (lane g e)) = proj W bb (fun d => x (ix3 0 r (lane g d))) e := by
  rw [pay2_apply, hb (lane g e), lane_mod]
  show _ = (∑ d : Fin 64, x (ix3 0 r (lane g d)) * W e d) + bb e
  refine congrArg (· + bb e) ?_
  refine Eq.trans (Finset.sum_congr rfl fun k _ => ?_) (sum_blockdiag (fun k => x (ix3 0 r k)) W g e)
  rw [hw k (lane g e), lane_div, lane_mod]

/-- The value payload likewise. -/
theorem vproj_apply (x : Vec Ideal S1x2048x512 .f32) (w : Vec Ideal S512x512 .f32) (b : Vec Ideal S1x512 .f32)
    (W : Fin 64 → Fin 64 → EReal) (bb : Fin 64 → EReal)
    (hw : ∀ k j : Fin 512, w (ix2 k j) = (if k.val / 64 = j.val / 64 then (1 : EReal) else 0) * W ⟨j.val % 64, Nat.mod_lt _ (by norm_num)⟩ ⟨k.val % 64, Nat.mod_lt _ (by norm_num)⟩)
    (hb : ∀ j : Fin 512, b (ix2 0 j) = bb ⟨j.val % 64, Nat.mod_lt _ (by norm_num)⟩) (r : Fin 2048) (g : Fin 8) (e : Fin 64) :
    k0_pay3 (F := Ideal) x w b (ix2 r (lane g e)) = proj W bb (fun d => x (ix3 0 r (lane g d))) e := by
  rw [pay3_apply, hb (lane g e), lane_mod]
  show _ = (∑ d : Fin 64, x (ix3 0 r (lane g d)) * W e d) + bb e
  refine congrArg (· + bb e) ?_
  refine Eq.trans (Finset.sum_congr rfl fun k _ => ?_) (sum_blockdiag (fun k => x (ix3 0 r k)) W g e)
  rw [hw k (lane g e), lane_div, lane_mod]

end Cert.Attn

end
-- ==== Proof.TileValue.lean ====
/-
  The output tile of one grid point, read one entry at a time.

  A grid point stores its output tile (one batch row, 512 query rows, 512 features = eight heads of 64) in four pieces
  of 128 features, each two heads' outputs side by side. Head `g` is computed from 64 columns of the tile's projected
  queries and 64 columns of each of the two scratch arrays that hold the projected keys and values, all three taken
  from column `g * 64` on, and from the tile's mask words.

  This module reads that off entry by entry. A stored pair at feature `c` is its first head at `c` when `c < 64` and its
  second head at `c - 64` otherwise; a slice or a load of 64 columns from column `o` reads column `o + d` at `d`; so the
  whole-vector head over the columns from `g * 64` on is, at (row `r`, feature `e`), the row-wise attention of head `g`
  over the tile's own arrays (`tileHead`). A piece stored at feature offset `P` (a multiple of 128) therefore holds, at
  its local index (row `r`, feature `c`), the value of head `(P + c) / 64` at feature `(P + c) % 64` — the same function
  of the tile's index for all four pieces — and since the four pieces cover the tile, the tile holds that function
  everywhere: at (row `r`, column `e` of head `g`) it holds head `g`'s attention at row `r`, feature `e`.
-/
import proofs.«422591_j53541062312519_3_alg».proof.Proof.Pieces
import proofs.«422591_j53541062312519_3_alg».proof.Proof.PairStores
import proofs.«422591_j53541062312519_3_alg».proof.Proof.HeadValue
import proofs.«422591_j53541062312519_3_alg».proof.Proof.ProjLayer
import Idealize.ShloMosaic.Lib.Pipeline.Value
import Idealize.ShloMosaic.Lib.ValueLayout
import Idealize.ShloMosaic.Lib.ValueIdx
import Idealize.ShloMosaic.Lib.Ring
import Idealize.ShloMosaic.Lib.Tactic

set_option maxRecDepth 16384

noncomputable section

namespace Cert.Attn

open Idealize.ShloMosaic Idealize.ShloMosaic.ValueIdx Idealize.ShloMosaic.Tactic Cert.KernelIdeal Cert.KernelIdeal.Gen

/-- Head g of a tile at query row r, feature e: from the tile's projected queries, its mask words and the two scratch arrays. -/
def tileHead (qp : FVec Ideal S512x512 .bf16) (mk : IVec S512x2048 32) (KS VS : Vec Ideal S2048x512 .bf16) (r : Fin 512) (g : Fin 8) (e : Fin 64) : EReal :=
  headRow (fun d => qp (ix2 r (lane g d))) (fun k d => KS (ix2 k (lane g d))) (fun k d => VS (ix2 k (lane g d))) (fun k => mk (ix2 r k)) e

/-- The head's value depends on the row, the head and the feature only through their numbers. -/
theorem tileHead_congr (qp : FVec Ideal S512x512 .bf16) (mk : IVec S512x2048 32) (KS VS : Vec Ideal S2048x512 .bf16)
    {r r' : Fin 512} {g g' : Fin 8} {e e' : Fin 64} (hr : r.val = r'.val) (hg : g.val = g'.val) (he : e.val = e'.val) :
    tileHead qp mk KS VS r g e = tileHead qp mk KS VS r' g' e' := by
  rw [Fin.ext hr, Fin.ext hg, Fin.ext he]

/-- One head's output depends on its three arrays only through their entries. -/
theorem headRow_congr {q q' : Fin 64 → EReal} {kp kp' vp vp' : Fin 2048 → Fin 64 → EReal} (m : Fin 2048 → BitVec 32) (e : Fin 64)
    (hq : ∀ d, q d = q' d) (hk : ∀ k d, kp k d = kp' k d) (hv : ∀ k d, vp k d = vp' k d) :
    headRow q kp vp m e = headRow q' kp' vp' m e := by
  obtain rfl : q = q' := funext hq
  obtain rfl : kp = kp' := funext fun k => funext (hk k)
  obtain rfl : vp = vp' := funext fun k => funext (hv k)
  rfl

/-! ## Two heads side by side -/

/-- The left 64 features of a stored pair are the first head's. -/
theorem pairVec_left (h0 h1 : FVec Ideal S512x64 .f32) (u : Fin 1) (r : Fin 512) (c : Fin 128) (hc : c.val < 64) :
    pairVec h0 h1 (ix3 u r c) = h0 (ix2 r ⟨c.val, hc⟩) := by
  unfold pairVec
  rw [shapeCast_ab_1ab_apply]
  exact concatenate_pair_apply_left _ h0 h1 _ (ix2 r c) rfl (ix2 r ⟨c.val, hc⟩) (fun b => by
    match b with
    | ⟨0, _⟩ => rfl
    | ⟨1, _⟩ => rfl)

/-- The right 64 features are the second head's. -/
theorem pairVec_right (h0 h1 : FVec Ideal S512x64 .f32) (u : Fin 1) (r : Fin 512) (c : Fin 128) (hc : 64 ≤ c.val) :
    pairVec h0 h1 (ix3 u r c) = h1 (ix2 r ⟨c.val - 64, by have := c.isLt; omega⟩) := by
  unfold pairVec
  rw [shapeCast_ab_1ab_apply]
  exact concatenate_pair_apply_right _ h0 h1 _ (ix2 r c) rfl rfl (ix2 r ⟨c.val - 64, by have := c.isLt; omega⟩) (fun b hb => by
    match b, hb with
    | ⟨0, _⟩, _ => rfl
    | ⟨1, _⟩, hb => exact absurd (Fin.ext rfl) hb) (by show c.val - 64 + 64 = c.val; omega)

/-! ## Sixty-four columns of a scratch array -/

/-- A load of 64 columns from column `o` on reads, at (k, d), the array at (k, o + d). -/
theorem ld_col (X : Vec Ideal S2048x512 .bf16) (o : Nat)
    (inb : ∀ a, (![0, o] : Fin 2 → Nat) a + S2048x64.size a ≤ S2048x512.size a) (k : Fin 2048) (d : Fin 64)
    (k' : Fin 512) (hk : k'.val = o + d.val) :
    View.ld X (Rect.unit ![0, o] S2048x64.size inb) (ix2 k d) = X (ix2 k k') := by
  show X _ = X _
  congr 1
  funext a
  match a with
  | ⟨0, _⟩ => exact Fin.ext (by show 0 + 1 * k.val = k.val; omega)
  | ⟨1, _⟩ => exact Fin.ext (by show o + 1 * d.val = k'.val; omega)

/-! ## One head of the tile -/

/-- The whole-vector head over the 64 query columns, key columns and value columns from column `g * 64` on is head `g`
    of the tile. -/
theorem headVec_cols (qp : FVec Ideal S512x512 .bf16) (mk : IVec S512x2048 32) (KS VS : Vec Ideal S2048x512 .bf16)
    (g : Fin 8) (o : Nat) (ho : o = g.val * 64) (hs : S512x512.Slices ![0, o] S512x64)
    (inb : ∀ a, (![0, o] : Fin 2 → Nat) a + S2048x64.size a ≤ S2048x512.size a) (r : Fin 512) (e : Fin 64) :
    headVec (F := Ideal) (extractStridedSlice S512x64 ![0, o] qp hs) (View.ld KS (Rect.unit ![0, o] S2048x64.size inb))
        (View.ld VS (Rect.unit ![0, o] S2048x64.size inb)) mk (ix2 r e) = tileHead qp mk KS VS r g e := by
  subst ho
  unfold tileHead
  exact (headVec_apply _ _ _ mk r e).trans (headRow_congr _ e
    (fun d => slice2_axis1_apply _ qp hs r d (lane g d) rfl)
    (fun k d => ld_col KS _ inb k d (lane g d) rfl)
    (fun k d => ld_col VS _ inb k d (lane g d) rfl))

/-! ## One store of the tile -/

/-- What the tile holds at an index, by the index's coordinates: the head and the feature the column names. -/
def tileG (qp : FVec Ideal S512x512 .bf16) (mk : IVec S512x2048 32) (KS VS : Vec Ideal S2048x512 .bf16) (y : S1x512x512.Idx) : EReal :=
  tileHead qp mk KS VS ⟨(y 1).val, (y 1).isLt⟩ ⟨(y 2).val / 64, by have h : (y 2).val < 512 := (y 2).isLt; omega⟩
    ⟨(y 2).val % 64, Nat.mod_lt _ (by norm_num)⟩

/-- A store of two heads side by side at feature offset `P` (a multiple of 128) holds, at each of its indices, the
    tile's value at the index it is stored to. -/
theorem store_apply (qp : FVec Ideal S512x512 .bf16) (mk : IVec S512x2048 32) (KS VS : Vec Ideal S2048x512 .bf16)
    (P P1 : Nat) (hP : P % 128 = 0) (hP1 : P1 = P + 64) (hle : P + 128 ≤ 512)
    (inbO : ∀ a, (![0, 0, P] : Fin 3 → Nat) a + (![1, 512, 128] : Fin 3 → Nat) a ≤ S1x512x512.size a)
    (hs0 : S512x512.Slices ![0, P] S512x64) (hs1 : S512x512.Slices ![0, P1] S512x64)
    (inb0 : ∀ a, (![0, P] : Fin 2 → Nat) a + S2048x64.size a ≤ S2048x512.size a)
    (inb1 : ∀ a, (![0, P1] : Fin 2 → Nat) a + S2048x64.size a ≤ S2048x512.size a)
    (x : S1x512x128.Idx) :
    pairVec (headVec (F := Ideal) (extractStridedSlice S512x64 ![0, P] qp hs0) (View.ld KS (Rect.unit ![0, P] S2048x64.size inb0)) (View.ld VS (Rect.unit ![0, P] S2048x64.size inb0)) mk)
        (headVec (F := Ideal) (extractStridedSlice S512x64 ![0, P1] qp hs1) (View.ld KS (Rect.unit ![0, P1] S2048x64.size inb1)) (View.ld VS (Rect.unit ![0, P1] S2048x64.size inb1)) mk) x
      = tileG qp mk KS VS ((Rect.unit (s := S1x512x512) ![0, 0, P] ![1, 512, 128] inbO).emb x) := by
  obtain ⟨u, r, c, rfl⟩ : ∃ (u : Fin 1) (r : Fin 512) (c : Fin 128), x = ix3 u r c := ⟨x 0, x 1, x 2, eq_ix3 x⟩
  subst hP1
  unfold tileG
  by_cases hc : c.val < 64
  · rw [pairVec_left _ _ u r c hc,
      headVec_cols qp mk KS VS ⟨P / 64, by omega⟩ P (by show P = P / 64 * 64; omega) hs0 inb0 r ⟨c.val, hc⟩]
    refine tileHead_congr qp mk KS VS ?_ ?_ ?_
    · show r.val = 0 + 1 * r.val; omega
    · show P / 64 = (P + 1 * c.val) / 64; omega
    · show c.val = (P + 1 * c.val) % 64; omega
  · have hc' : 64 ≤ c.val := Nat.le_of_not_lt hc
    have hc2 : c.val < 128 := c.isLt
    rw [pairVec_right _ _ u r c hc',
      headVec_cols qp mk KS VS ⟨P / 64 + 1, by omega⟩ (P + 64) (by show P + 64 = (P / 64 + 1) * 64; omega) hs1 inb1 r ⟨c.val - 64, by omega⟩]
    refine tileHead_congr qp mk KS VS ?_ ?_ ?_
    · show r.val = 0 + 1 * r.val; omega
    · show P / 64 + 1 = (P + 1 * c.val) / 64; omega
    · show c.val - 64 = (P + 1 * c.val) % 64; omega

/-! ## The tile -/

/-- The tile at (row `r`, column `e` of head `g`) is head `g`'s attention at row `r`, feature `e`, over the tile's projected
    queries, its mask words and the two scratch arrays. -/
theorem tile_apply (x0 : Vec Ideal S1x512x512 .f32) (x3 : Vec Ideal S512x2048 .i32) (x4 : Vec Ideal S512x512 .f32) (x5 : Vec Ideal S1x512 .f32)
    (KS VS : Vec Ideal S2048x512 .bf16) (r : Fin 512) (g : Fin 8) (e : Fin 64) :
    View.canon (outStores (F := Ideal) x0 x3 x4 x5 KS VS) (ix3 0 r (lane g e)) = tileHead (k0_pay4 x0 x4 x5) (k0_pay5 x3) KS VS r g e := by
  have hL : ∀ p ∈ outStores (F := Ideal) x0 x3 x4 x5 KS VS, ∀ x : p.1.shape.Idx,
      p.2 x = tileG (k0_pay4 x0 x4 x5) (k0_pay5 x3) KS VS (p.1.emb x) := by
    intro p hp
    unfold outStores at hp
    rcases List.mem_cons.mp hp with rfl | hp
    · intro x
      exact (congrFun (store3_eq _ _ _ _ _ _) x).trans
        (store_apply (k0_pay4 x0 x4 x5) (k0_pay5 x3) KS VS 384 448 (by decide) rfl (by decide)
          inb_S1x512x512_S1x512x128_0_0_384 slices_S512x512_o0_384_S512x64 slices_S512x512_o0_448_S512x64
          inb_S2048x512_S2048x64_0_384 inb_S2048x512_S2048x64_0_448 x)
    rcases List.mem_cons.mp hp with rfl | hp
    · intro x
      exact (congrFun (store2_eq _ _ _ _ _ _) x).trans
        (store_apply (k0_pay4 x0 x4 x5) (k0_pay5 x3) KS VS 256 320 (by decide) rfl (by decide)
          inb_S1x512x512_S1x512x128_0_0_256 slices_S512x512_o0_256_S512x64 slices_S512x512_o0_320_S512x64
          inb_S2048x512_S2048x64_0_256 inb_S2048x512_S2048x64_0_320 x)
    rcases List.mem_cons.mp hp with rfl | hp
    · intro x
      exact (congrFun (store1_eq _ _ _ _ _ _) x).trans
        (store_apply (k0_pay4 x0 x4 x5) (k0_pay5 x3) KS VS 128 192 (by decide) rfl (by decide)
          inb_S1x512x512_S1x512x128_0_0_128 slices_S512x512_o0_128_S512x64 slices_S512x512_o0_192_S512x64
          inb_S2048x512_S2048x64_0_128 inb_S2048x512_S2048x64_0_192 x)
    rcases List.mem_cons.mp hp with rfl | hp
    · intro x
      exact (congrFun (store0_eq _ _ _ _ _ _ _ _) x).trans
        (store_apply (k0_pay4 x0 x4 x5) (k0_pay5 x3) KS VS 0 64 (by decide) rfl (by decide)
          inb_S1x512x512_S1x512x128_0_0_0 slices_S512x512_o0_0_S512x64 slices_S512x512_o0_64_S512x64
          inb_S2048x512_S2048x64_0_0 inb_S2048x512_S2048x64_0_64 x)
    exact absurd hp List.not_mem_nil
  rw [View.canon_apply_of_pieces (tileG (k0_pay4 x0 x4 x5) (k0_pay5 x3) KS VS) _ hL _
    (View.cover_of_tiledL (outStores (F := Ideal) x0 x3 x4 x5 KS VS) S1x512x128.size (by sl_kernel_rfl) _)]
  unfold tileG
  refine tileHead_congr _ _ KS VS rfl ?_ ?_
  · exact lane_div g e
  · show (lane g e).val % 64 = e.val
    exact congrArg Fin.val (lane_mod g e)

end Cert.Attn

end
-- ==== Proof.BlockReads.lean ====
/-
  What each window's block holds at a grid point, by global coordinates.

  The grid point number `t` stands for (batch, head group, query tile) = (t / 8, t / 4 % 2, t % 4). An element of a
  window's block sits in the window's array, on every axis, at the block index times the block's extent plus the element's
  coordinate inside the block. The block indices at point `t` are: for the query window and the output window (batch,
  query tile, head group) with blocks of 1 × 512 × 512 in an array of 2 × 2048 × 1024; for the key and value windows
  (batch, 0, head group) with blocks of 1 × 2048 × 512; for the mask window (query tile, 0) with blocks of 512 × 2048 in
  an array of 2048 × 2048; and (0, 0) for the six windows whose block is their whole array. So row `r`, column `j` of
  the query block is the query array at batch `t / 8`, position `(t % 4) · 512 + r`, embedding column
  `(t / 4 % 2) · 512 + j`, and likewise for the others.
-/
import proofs.«422591_j53541062312519_3_alg».proof.Proof.Gen.KernelIdeal.Frame
import proofs.«422591_j53541062312519_3_alg».proof.Proof.GridPoint
import Idealize.ShloMosaic.Lib.ValueIdx

noncomputable section

namespace Cert.Attn

open Idealize.ShloMosaic Idealize.ShloMosaic.TcCoe Idealize.SL.Sem Cert.KernelIdeal Cert.KernelIdeal.Gen
open Idealize.ShloMosaic.ValueIdx

/-! ## The block indices at every grid point, decided over the sixteen points -/

/-- The query window's block index is (batch, query tile, head group). -/
theorem idx_q : ∀ t : Fin cfg0.N, win0_0.index t (0 : Fin 3) = t.val / 8 ∧ win0_0.index t (1 : Fin 3) = t.val % 4
    ∧ win0_0.index t (2 : Fin 3) = t.val / 4 % 2 :=
  (by decide +kernel : ∀ t : Fin grid0.N, _)

/-- The key window's block index is (batch, 0, head group). -/
theorem idx_k : ∀ t : Fin cfg0.N, win0_1.index t (0 : Fin 3) = t.val / 8 ∧ win0_1.index t (1 : Fin 3) = 0
    ∧ win0_1.index t (2 : Fin 3) = t.val / 4 % 2 :=
  (by decide +kernel : ∀ t : Fin grid0.N, _)

/-- The value window's block index is (batch, 0, head group). -/
theorem idx_v : ∀ t : Fin cfg0.N, win0_2.index t (0 : Fin 3) = t.val / 8 ∧ win0_2.index t (1 : Fin 3) = 0
    ∧ win0_2.index t (2 : Fin 3) = t.val / 4 % 2 :=
  (by decide +kernel : ∀ t : Fin grid0.N, _)

/-- The mask window's block index is (query tile, 0). -/
theorem idx_mask : ∀ t : Fin cfg0.N, win0_3.index t (0 : Fin 2) = t.val % 4 ∧ win0_3.index t (1 : Fin 2) = 0 :=
  (by decide +kernel : ∀ t : Fin grid0.N, _)

/-- The six whole-array windows' block index is (0, 0). -/
theorem idx_whole : ∀ t : Fin cfg0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The output window's block index is (batch, query tile, head group). -/
theorem idx_out : ∀ t : Fin cfg0.N, win0_10.index t (0 : Fin 3) = t.val / 8 ∧ win0_10.index t (1 : Fin 3) = t.val % 4
    ∧ win0_10.index t (2 : Fin 3) = t.val / 4 % 2 :=
  (by decide +kernel : ∀ t : Fin grid0.N, _)

variable (m : (ℓ : Loc nD τ sig) → Buf (Elt Ideal) ℓ) (c : Dev nD)

/-! ## Where an element of a block sits in its array -/

/-- Row `r`, column `j` of the query block at point `t` sits at (batch, query position, embedding column). -/
theorem q_emb (t : Fin cfg0.N) (r j : Fin 512) :
    ((cfg0.win 0).blk t).view.emb (ix3 0 r j : S1x512x512.Idx) = (ix3 (tb t) (qpos t r) (gcol t j) : S2x2048x1024.Idx) := by
  obtain ⟨e0, e1, e2⟩ := idx_q t
  funext a; apply Fin.ext
  match a with
  | ⟨0, _⟩ => show win0_0.index t (0 : Fin 3) * 1 + 1 * 0 = t.val / 8; omega
  | ⟨1, _⟩ => show win0_0.index t (1 : Fin 3) * 512 + 1 * r.val = t.val % 4 * 512 + r.val; omega
  | ⟨2, _⟩ => show win0_0.index t (2 : Fin 3) * 512 + 1 * j.val = t.val / 4 % 2 * 512 + j.val; omega

theorem q_blk (t : Fin cfg0.N) (r j : Fin 512) :
    (iblk m c 0 t : S1x512x512.Idx → EReal) (ix3 0 r j)
      = (V m c main_arg0 : S2x2048x1024.Idx → EReal) (ix3 (tb t) (qpos t r) (gcol t j)) := by
  unfold iblk
  show (V m c main_arg0 : S2x2048x1024.Idx → EReal) (((cfg0.win 0).blk t).view.emb (ix3 0 r j : S1x512x512.Idx)) = _
  exact congrArg (V m c main_arg0 : S2x2048x1024.Idx → EReal) (q_emb t r j)

/-- Row `k`, column `j` of the key block at point `t` sits at (batch, `k`, embedding column). -/
theorem k_emb (t : Fin cfg0.N) (k : Fin 2048) (j : Fin 512) :
    ((cfg0.win 1).blk t).view.emb (ix3 0 k j : S1x2048x512.Idx) = (ix3 (tb t) k (gcol t j) : S2x2048x1024.Idx) := by
  obtain ⟨e0, e1, e2⟩ := idx_k t
  funext a; apply Fin.ext
  match a with
  | ⟨0, _⟩ => show win0_1.index t (0 : Fin 3) * 1 + 1 * 0 = t.val / 8; omega
  | ⟨1, _⟩ => show win0_1.index t (1 : Fin 3) * 2048 + 1 * k.val = k.val; omega
  | ⟨2, _⟩ => show win0_1.index t (2 : Fin 3) * 512 + 1 * j.val = t.val / 4 % 2 * 512 + j.val; omega

theorem k_blk (t : Fin cfg0.N) (k : Fin 2048) (j : Fin 512) :
    (iblk m c 1 t : S1x2048x512.Idx → EReal) (ix3 0 k j)
      = (V m c main_arg1 : S2x2048x1024.Idx → EReal) (ix3 (tb t) k (gcol t j)) := by
  unfold iblk
  show (V m c main_arg1 : S2x2048x1024.Idx → EReal) (((cfg0.win 1).blk t).view.emb (ix3 0 k j : S1x2048x512.Idx)) = _
  exact congrArg (V m c main_arg1 : S2x2048x1024.Idx → EReal) (k_emb t k j)

/-- Row `k`, column `j` of the value block at point `t` sits at (batch, `k`, embedding column). -/
theorem v_emb (t : Fin cfg0.N) (k : Fin 2048) (j : Fin 512) :
    ((cfg0.win 2).blk t).view.emb (ix3 0 k j : S1x2048x512.Idx) = (ix3 (tb t) k (gcol t j) : S2x2048x1024.Idx) := by
  obtain ⟨e0, e1, e2⟩ := idx_v t
  funext a; apply Fin.ext
  match a with
  | ⟨0, _⟩ => show win0_2.index t (0 : Fin 3) * 1 + 1 * 0 = t.val / 8; omega
  | ⟨1, _⟩ => show win0_2.index t (1 : Fin 3) * 2048 + 1 * k.val = k.val; omega
  | ⟨2, _⟩ => show win0_2.index t (2 : Fin 3) * 512 + 1 * j.val = t.val / 4 % 2 * 512 + j.val; omega

theorem v_blk (t : Fin cfg0.N) (k : Fin 2048) (j : Fin 512) :
    (iblk m c 2 t : S1x2048x512.Idx → EReal) (ix3 0 k j)
      = (V m c main_arg2 : S2x2048x1024.Idx → EReal) (ix3 (tb t) k (gcol t j)) := by
  unfold iblk
  show (V m c main_arg2 : S2x2048x1024.Idx → EReal) (((cfg0.win 2).blk t).view.emb (ix3 0 k j : S1x2048x512.Idx)) = _
  exact congrArg (V m c main_arg2 : S2x2048x1024.Idx → EReal) (v_emb t k j)

/-- Row `r`, column `k` of the mask block at point `t` sits at (query position, `k`). -/
theorem mask_emb (t : Fin cfg0.N) (r : Fin 512) (k : Fin 2048) :
    ((cfg0.win 3).blk t).view.emb (ix2 r k : S512x2048.Idx) = (ix2 (qpos t r) k : S2048x2048.Idx) := by
  obtain ⟨e0, e1⟩ := idx_mask t
  funext a; apply Fin.ext
  match a with
  | ⟨0, _⟩ => show win0_3.index t (0 : Fin 2) * 512 + 1 * r.val = t.val % 4 * 512 + r.val; omega
  | ⟨1, _⟩ => show win0_3.index t (1 : Fin 2) * 2048 + 1 * k.val = k.val; omega

theorem mask_tile (t : Fin cfg0.N) (r : Fin 512) (k : Fin 2048) :
    (iblk m c 3 t : S512x2048.Idx → BitVec 32) (ix2 r k)
      = (V m c main_v0 : S2048x2048.Idx → BitVec 32) (ix2 (qpos t r) k) := by
  unfold iblk
  show (V m c main_v0 : S2048x2048.Idx → BitVec 32) (((cfg0.win 3).blk t).view.emb (ix2 r k : S512x2048.Idx)) = _
  exact congrArg (V m c main_v0 : S2048x2048.Idx → BitVec 32) (mask_emb t r k)

/-! ## The six windows whose block is the whole array -/

theorem wq_tile (t : Fin cfg0.N) : (iblk m c 4 t : S512x512.Idx → EReal) = V m c main_v8 := by
  obtain ⟨⟨e0, e1⟩, -⟩ := idx_whole t
  funext y
  unfold iblk
  show (V m c main_v8 : S512x512.Idx → EReal) (((cfg0.win 4).blk t).view.emb y) = (V m c main_v8 : S512x512.Idx → EReal) y
  refine congrArg (V m c main_v8 : S512x512.Idx → EReal) (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem bq_tile (t : Fin cfg0.N) : (iblk m c 5 t : S1x512.Idx → EReal) = V m c main_v16 := by
  obtain ⟨-, ⟨e0, e1⟩, -⟩ := idx_whole t
  funext y
  unfold iblk
  show (V m c main_v16 : S1x512.Idx → EReal) (((cfg0.win 5).blk t).view.emb y) = (V m c main_v16 : S1x512.Idx → EReal) y
  refine congrArg (V m c main_v16 : S1x512.Idx → EReal) (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

theorem wk_tile (t : Fin cfg0.N) : (iblk m c 6 t : S512x512.Idx → EReal) = V m c main_v10 := by
  obtain ⟨-, -, ⟨e0, e1⟩, -⟩ := idx_whole t
  funext y
  unfold iblk
  show (V m c main_v10 : S512x512.Idx → EReal) (((cfg0.win 6).blk t).view.emb y) = (V m c main_v10 : S512x512.Idx → EReal) y
  refine congrArg (V m c main_v10 : S512x512.Idx → EReal) (funext fun a => Fin.ext ?_)
  match a with
  | ⟨0, _⟩ => show win0_6.index t (0 : Fin 2) * 512 + 1 * (y 0).val = (y 0).val; omega
  | ⟨1, _⟩ => show win0_6.index t (1 : Fin 2) * 512 + 1 * (y 1).val = (y 1).val; omega

theorem bk_tile (t : Fin cfg0.N) : (iblk m c 7 t : S1x512.Idx → EReal) = V m c main_v20 := by
  obtain ⟨-, -, -, ⟨e0, e1⟩, -⟩ := idx_whole t
  funext y
  unfold iblk
  show (V m c main_v20 : S1x512.Idx → EReal) (((cfg0.win 7).blk t).view.emb y) = (V m c main_v20 : S1x512.Idx → EReal) y
  refine congrArg (V m c main_v20 : S1x512.Idx → EReal) (funext fun a => Fin.ext ?_)
  match a with
  | ⟨0, _⟩ => show win0_7.index t (0 : Fin 2) * 1 + 1 * (y 0).val = (y 0).val; omega
  | ⟨1, _⟩ => show win0_7.index t (1 : Fin 2) * 512 + 1 * (y 1).val = (y 1).val; omega

theorem wv_tile (t : Fin cfg0.N) : (iblk m c 8 t : S512x512.Idx → EReal) = V m c main_v12 := by
  obtain ⟨-, -, -, -, ⟨e0, e1⟩, -⟩ := idx_whole t
  funext y
  unfold iblk
  show (V m c main_v12 : S512x512.Idx → EReal) (((cfg0.win 8).blk t).view.emb y) = (V m c main_v12 : S512x512.Idx → EReal) y
  refine congrArg (V m c main_v12 : S512x512.Idx → EReal) (funext fun a => Fin.ext ?_)
  match a with
  | ⟨0, _⟩ => show win0_8.index t (0 : Fin 2) * 512 + 1 * (y 0).val = (y 0).val; omega
  | ⟨1, _⟩ => show win0_8.index t (1 : Fin 2) * 512 + 1 * (y 1).val = (y 1).val; omega

theorem bv_tile (t : Fin cfg0.N) : (iblk m c 9 t : S1x512.Idx → EReal) = V m c main_v24 := by
  obtain ⟨-, -, -, -, -, e0, e1⟩ := idx_whole t
  funext y
  unfold iblk
  show (V m c main_v24 : S1x512.Idx → EReal) (((cfg0.win 9).blk t).view.emb y) = (V m c main_v24 : S1x512.Idx → EReal) y
  refine congrArg (V m c main_v24 : S1x512.Idx → EReal) (funext fun a => Fin.ext ?_)
  match a with
  | ⟨0, _⟩ => show win0_9.index t (0 : Fin 2) * 1 + 1 * (y 0).val = (y 0).val; omega
  | ⟨1, _⟩ => show win0_9.index t (1 : Fin 2) * 512 + 1 * (y 1).val = (y 1).val; omega

/-! ## The output window -/

/-- Row `r`, column `j` of the output block at point `t` sits at (batch, query position, embedding column). -/
theorem out_emb (t : Fin cfg0.N) (r j : Fin 512) :
    ((cfg0.win 10).blk t).view.emb (ix3 0 r j : S1x512x512.Idx) = (ix3 (tb t) (qpos t r) (gcol t j) : S2x2048x1024.Idx) := by
  obtain ⟨e0, e1, e2⟩ := idx_out t
  funext a; apply Fin.ext
  match a with
  | ⟨0, _⟩ => show win0_10.index t (0 : Fin 3) * 1 + 1 * 0 = t.val / 8; omega
  | ⟨1, _⟩ => show win0_10.index t (1 : Fin 3) * 512 + 1 * r.val = t.val % 4 * 512 + r.val; omega
  | ⟨2, _⟩ => show win0_10.index t (2 : Fin 3) * 512 + 1 * j.val = t.val / 4 % 2 * 512 + j.val; omega

end Cert.Attn

end
-- ==== Proof.HostSide.lean ====
/-
  What the host operations of the kernel program leave, before its one region starts, in the arrays the region's
  weight, bias and mask windows read.

  * Each of the three 512 × 512 weight arrays is the Kronecker product of the 8 × 8 identity with the transpose of a
    64 × 64 weight W: entry (k, j) is 1 · W (j mod 64) (k mod 64) when k and j lie in the same block of 64 (k / 64 = j / 64),
    and 0 · W (j mod 64) (k mod 64) otherwise. The identity is built as "row coordinate plus zero equals column
    coordinate", converted from a bit to a real; the product is formed on the four-axis shape 8 × 64 × 8 × 64, where
    entry (g, a, g', b) is identity (g, g') times Wᵀ (a, b), and then read as 512 × 512: the row-major position of
    (g, a, g', b) is that of (g · 64 + a, g' · 64 + b).
  * Each of the three 1 × 512 bias arrays is a 64-entry bias repeated eight times: entry (0, j) is b (j mod 64).
  * The 2048 × 2048 mask array is the mask argument with its two leading unit axes dropped.

  The first two are proved once for an arbitrary weight and an arbitrary bias and then read at the three argument pairs.
-/
import proofs.«422591_j53541062312519_3_alg».proof.Proof.Gen.KernelIdeal.Frame.Runs
import proofs.«422591_j53541062312519_3_alg».proof.Proof.Attention
import Idealize.ShloMosaic.Lib.Pipeline.Value
import Idealize.ShloMosaic.Lib.IdealHost
import Idealize.ShloMosaic.Lib.StableHlo.Predicate

set_option maxRecDepth 16384

noncomputable section

namespace Cert.Attn.Host

open Idealize.ShloMosaic Idealize.ShloMosaic.TcCoe Idealize.ShloMosaic.ValueIdx Idealize.ShloMosaic.StableHlo
open Idealize.SL.Sem
open Cert.KernelIdeal Cert.KernelIdeal.Gen

/-! ## The three host computations as functions of their one argument -/

/-- The 8 × 8 identity: the bit "row coordinate + 0 = column coordinate" as a real. -/
def eye8 : FVec Ideal S8x8 .f32 :=
  uitofp .f32 (cmpi .eq (addi (iotaInDim S8x8 32 0) (broadcastInDim S8x8 ![] bcast_S_S8x8 (constantI S_ 32 0#32))) (iotaInDim S8x8 32 1))

/-- The Kronecker product of the 8 × 8 identity with the transpose of a 64 × 64 matrix, as a 512 × 512 matrix. -/
def kron (W : FVec Ideal S64x64 .f32) : FVec Ideal S512x512 .f32 :=
  shapeCast S512x512
    (mulf
      (broadcastInDim S8x64x8x64 ![0, 1, 2, 3] bcast_S8x1x8x1_S8x64x8x64_0_1_2_3
        (broadcastInDim S8x1x8x1 ![0, 2] bcast_S8x8_S8x1x8x1_0_2 eye8))
      (broadcastInDim S8x64x8x64 ![0, 1, 2, 3] bcast_S1x64x1x64_S8x64x8x64_0_1_2_3
        (broadcastInDim S1x64x1x64 ![1, 3] bcast_S64x64_S1x64x1x64_1_3
          (transpose S64x64 [1, 0] W transposes_S64x64_S64x64_1_0))))
    shapeCasts_S8x64x8x64_S512x512

/-- A 64-entry vector repeated eight times, as a 1 × 512 row. -/
def tile (b : FVec Ideal S64 .f32) : FVec Ideal S1x512 .f32 :=
  shapeCast S1x512
    (shapeCast S512
      (broadcastInDim S8x64 ![0, 1] bcast_S1x64_S8x64_0_1 (shapeCast S1x64 b shapeCasts_S64_S1x64))
      shapeCasts_S8x64_S512)
    shapeCasts_S512_S1x512

/-! ## Their entries -/

/-- Entry (g, g') of the identity is 1 when g = g' and 0 otherwise: two coordinates below 8 are equal exactly when
    their 32-bit words are, and the bit's value as a real is 1 or 0. -/
theorem eye8_apply (g g' : Fin 8) : eye8 (ix2 g g') = if g.val = g'.val then (1 : EReal) else 0 := by
  have h1 : eye8 (ix2 g g')
      = (((IntOp.cmpi .eq (IntOp.addi (BitVec.ofNat 32 g.val) 0#32) (BitVec.ofNat 32 g'.val)).toNat : ℝ) : EReal) := rfl
  rw [h1]
  have hg := g.isLt
  have hg' := g'.isLt
  by_cases h : g.val = g'.val
  · have hc : IntOp.cmpi .eq (IntOp.addi (BitVec.ofNat 32 g.val) 0#32) (BitVec.ofNat 32 g'.val) = 1#1 :=
      Predicate.cmpi_eq_iff.mpr (by rw [h]; simp [IntOp.addi])
    rw [hc, if_pos h]; simp
  · have hc : IntOp.cmpi .eq (IntOp.addi (BitVec.ofNat 32 g.val) 0#32) (BitVec.ofNat 32 g'.val) = 0#1 :=
      eq_zero_of_ne_one (fun hc => h (by
        have := congrArg BitVec.toNat (Predicate.cmpi_eq_iff.mp hc)
        simp only [IntOp.addi, BitVec.add_zero, BitVec.toNat_ofNat] at this
        omega))
    rw [hc, if_neg h]; simp

/-- Entry (k, j) of the Kronecker product. Write k = g · 64 + a and j = g' · 64 + b; the 512 × 512 entry is the
    four-axis entry (g, a, g', b), whose first factor is the identity at (g, g') and whose second is the transpose at
    (a, b), that is W at (b, a). -/
theorem kron_apply (W : FVec Ideal S64x64 .f32) (k j : Fin 512) :
    kron W (ix2 k j)
      = (if k.val / 64 = j.val / 64 then (1 : EReal) else 0)
        * W (ix2 ⟨j.val % 64, Nat.mod_lt _ (by norm_num)⟩ ⟨k.val % 64, Nat.mod_lt _ (by norm_num)⟩) := by
  have hk := k.isLt
  have hj := j.isLt
  obtain ⟨g, hg⟩ : ∃ g : Fin 8, g.val = k.val / 64 := ⟨⟨k.val / 64, by omega⟩, rfl⟩
  obtain ⟨a, ha⟩ : ∃ a : Fin 64, a.val = k.val % 64 := ⟨⟨k.val % 64, by omega⟩, rfl⟩
  obtain ⟨g', hg'⟩ : ∃ g' : Fin 8, g'.val = j.val / 64 := ⟨⟨j.val / 64, by omega⟩, rfl⟩
  obtain ⟨b, hb⟩ : ∃ b : Fin 64, b.val = j.val % 64 := ⟨⟨j.val % 64, by omega⟩, rfl⟩
  have e0 : (⟨j.val % 64, Nat.mod_lt _ (by norm_num)⟩ : Fin 64) = b := Fin.ext hb.symm
  have e1 : (⟨k.val % 64, Nat.mod_lt _ (by norm_num)⟩ : Fin 64) = a := Fin.ext ha.symm
  rw [e0, e1, ← hg, ← hg']
  unfold kron
  -- the 512 × 512 entry (k, j) is the four-axis entry (g, a, g', b): equal row-major positions
  rw [shapeCast_apply _ shapeCasts_S8x64x8x64_S512x512 (ix2 k j) (ix4 g a g' b) (by
    rw [Shape.rowMajor_val_four, Shape.rowMajor_val_two]
    show ((g.val * 64 + a.val) * 8 + g'.val) * 64 + b.val = k.val * 512 + j.val
    omega)]
  rw [mulf_apply]
  -- the first factor keeps the coordinates g and g' …
  rw [broadcastInDim_apply _ bcast_S8x1x8x1_S8x64x8x64_0_1_2_3 _ (ix4 g a g' b) (ix4 g 0 g' 0) (by intro d; fin_cases d <;> rfl)]
  rw [broadcastInDim_apply _ bcast_S8x8_S8x1x8x1_0_2 _ (ix4 g 0 g' 0) (ix2 g g') (by intro d; fin_cases d <;> rfl)]
  -- … the second the coordinates a and b, which the transpose exchanges
  rw [broadcastInDim_apply _ bcast_S1x64x1x64_S8x64x8x64_0_1_2_3 _ (ix4 g a g' b) (ix4 0 a 0 b) (by intro d; fin_cases d <;> rfl)]
  rw [broadcastInDim_apply _ bcast_S64x64_S1x64x1x64_1_3 _ (ix4 0 a 0 b) (ix2 a b) (by intro d; fin_cases d <;> rfl)]
  rw [transpose_apply [1, 0] W transposes_S64x64_S64x64_1_0 (ix2 a b) (ix2 b a) (by intro d; fin_cases d <;> rfl)]
  rw [eye8_apply]

/-- Entry (0, j) of the repeated vector. Write j = g · 64 + d; the row entry j is the 8 × 64 entry (g, d), which is
    the vector's entry d whatever g is. -/
theorem tile_apply (b : FVec Ideal S64 .f32) (j : Fin 512) :
    tile b (ix2 0 j) = b (ix1 ⟨j.val % 64, Nat.mod_lt _ (by norm_num)⟩) := by
  have hj := j.isLt
  obtain ⟨g, hg⟩ : ∃ g : Fin 8, g.val = j.val / 64 := ⟨⟨j.val / 64, by omega⟩, rfl⟩
  obtain ⟨d, hd⟩ : ∃ d : Fin 64, d.val = j.val % 64 := ⟨⟨j.val % 64, by omega⟩, rfl⟩
  have e0 : (⟨j.val % 64, Nat.mod_lt _ (by norm_num)⟩ : Fin 64) = d := Fin.ext hd.symm
  rw [e0]
  unfold tile
  rw [shapeCast_apply _ shapeCasts_S512_S1x512 (ix2 0 j) (ix1 j) (by
    rw [Shape.rowMajor_val_one, Shape.rowMajor_val_two]
    show j.val = 0 * 512 + j.val
    omega)]
  rw [shapeCast_apply _ shapeCasts_S8x64_S512 (ix1 j) (ix2 g d) (by
    rw [Shape.rowMajor_val_one, Shape.rowMajor_val_two]
    show g.val * 64 + d.val = j.val
    omega)]
  rw [broadcastInDim_apply _ bcast_S1x64_S8x64_0_1 _ (ix2 g d) (ix2 0 d) (by intro x; fin_cases x <;> rfl)]
  rw [shapeCast_apply _ shapeCasts_S64_S1x64 (ix2 0 d) (ix1 d) (by
    rw [Shape.rowMajor_val_one, Shape.rowMajor_val_two]
    show d.val = 0 * 64 + d.val
    omega)]

/-! ## The arrays at the region's entry are these functions of the argument arrays -/

variable (m : (ℓ : Loc nD τ sig) → Buf (Elt Ideal) ℓ)

/-- The query weights' array is the Kronecker product over the query weight argument. -/
theorem v8_eq (c : Dev nD) :
    (V m c main_v8 : S512x512.Idx → EReal) = kron (m ((c : Thread nD τ).loc main_arg4) : S64x64.Idx → EReal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The key weights' array is the Kronecker product over the key weight argument. -/
theorem v10_eq (c : Dev nD) :
    (V m c main_v10 : S512x512.Idx → EReal) = kron (m ((c : Thread nD τ).loc main_arg6) : S64x64.Idx → EReal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

set_option maxHeartbeats 1600000 in
/-- The value weights' array is the Kronecker product over the value weight argument. -/
theorem v12_eq (c : Dev nD) :
    (V m c main_v12 : S512x512.Idx → EReal) = kron (m ((c : Thread nD τ).loc main_arg8) : S64x64.Idx → EReal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The query bias row is the query bias argument repeated. -/
theorem v16_eq (c : Dev nD) :
    (V m c main_v16 : S1x512.Idx → EReal) = tile (m ((c : Thread nD τ).loc main_arg5) : S64.Idx → EReal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The key bias row is the key bias argument repeated. -/
theorem v20_eq (c : Dev nD) :
    (V m c main_v20 : S1x512.Idx → EReal) = tile (m ((c : Thread nD τ).loc main_arg7) : S64.Idx → EReal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The value bias row is the value bias argument repeated. -/
theorem v24_eq (c : Dev nD) :
    (V m c main_v24 : S1x512.Idx → EReal) = tile (m ((c : Thread nD τ).loc main_arg9) : S64.Idx → EReal) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The mask array is the mask argument read on two axes. -/
theorem v0_eq (c : Dev nD) :
    (V m c main_v0 : S2048x2048.Idx → BitVec 32) = shapeCast S2048x2048 (m ((c : Thread nD τ).loc main_arg3) : S1x1x2048x2048.Idx → BitVec 32) shapeCasts_S1x1x2048x2048_S2048x2048 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## The seven entries -/

/-- The query weights' array at (k, j). -/
theorem wq_blk (c : Dev nD) (k j : Fin 512) :
    (V m c main_v8 : S512x512.Idx → EReal) (ix2 k j)
      = (if k.val / 64 = j.val / 64 then (1 : EReal) else 0)
        * (m ((c : Thread nD τ).loc main_arg4) : S64x64.Idx → EReal)
            (ix2 ⟨j.val % 64, Nat.mod_lt _ (by norm_num)⟩ ⟨k.val % 64, Nat.mod_lt _ (by norm_num)⟩) := by
  rw [v8_eq]; exact kron_apply _ k j

/-- The key weights' array at (k, j). -/
theorem wk_blk (c : Dev nD) (k j : Fin 512) :
    (V m c main_v10 : S512x512.Idx → EReal) (ix2 k j)
      = (if k.val / 64 = j.val / 64 then (1 : EReal) else 0)
        * (m ((c : Thread nD τ).loc main_arg6) : S64x64.Idx → EReal)
            (ix2 ⟨j.val % 64, Nat.mod_lt _ (by norm_num)⟩ ⟨k.val % 64, Nat.mod_lt _ (by norm_num)⟩) := by
  rw [v10_eq]; exact kron_apply _ k j

/-- The value weights' array at (k, j). -/
theorem wv_blk (c : Dev nD) (k j : Fin 512) :
    (V m c main_v12 : S512x512.Idx → EReal) (ix2 k j)
      = (if k.val / 64 = j.val / 64 then (1 : EReal) else 0)
        * (m ((c : Thread nD τ).loc main_arg8) : S64x64.Idx → EReal)
            (ix2 ⟨j.val % 64, Nat.mod_lt _ (by norm_num)⟩ ⟨k.val % 64, Nat.mod_lt _ (by norm_num)⟩) := by
  rw [v12_eq]; exact kron_apply _ k j

/-- The query bias row at j. -/
theorem bq_blk (c : Dev nD) (j : Fin 512) :
    (V m c main_v16 : S1x512.Idx → EReal) (ix2 0 j)
      = (m ((c : Thread nD τ).loc main_arg5) : S64.Idx → EReal) (ix1 ⟨j.val % 64, Nat.mod_lt _ (by norm_num)⟩) := by
  rw [v16_eq]; exact tile_apply _ j

/-- The key bias row at j. -/
theorem bk_blk (c : Dev nD) (j : Fin 512) :
    (V m c main_v20 : S1x512.Idx → EReal) (ix2 0 j)
      = (m ((c : Thread nD τ).loc main_arg7) : S64.Idx → EReal) (ix1 ⟨j.val % 64, Nat.mod_lt _ (by norm_num)⟩) := by
  rw [v20_eq]; exact tile_apply _ j

/-- The value bias row at j. -/
theorem bv_blk (c : Dev nD) (j : Fin 512) :
    (V m c main_v24 : S1x512.Idx → EReal) (ix2 0 j)
      = (m ((c : Thread nD τ).loc main_arg9) : S64.Idx → EReal) (ix1 ⟨j.val % 64, Nat.mod_lt _ (by norm_num)⟩) := by
  rw [v24_eq]; exact tile_apply _ j

/-- The mask array at (r, k) is the mask argument at (0, 0, r, k): equal row-major positions. -/
theorem mask_blk (c : Dev nD) (r k : Fin 2048) :
    (V m c main_v0 : S2048x2048.Idx → BitVec 32) (ix2 r k)
      = (m ((c : Thread nD τ).loc main_arg3) : S1x1x2048x2048.Idx → BitVec 32) (ix4 0 0 r k) := by
  rw [v0_eq]
  exact shapeCast_apply _ shapeCasts_S1x1x2048x2048_S2048x2048 (ix2 r k) (ix4 0 0 r k) (by
    rw [Shape.rowMajor_val_four, Shape.rowMajor_val_two]
    show ((0 * 1 + 0) * 2048 + r.val) * 2048 + k.val = r.val * 2048 + k.val
    omega)

end Cert.Attn.Host

end
-- ==== Proof.PointValue.lean ====
/-
  One grid point's head attention is the specification's attention at the point's global coordinates.

  Grid point t handles batch `tb t`, the eight heads of head group `thg t` and the 512 query positions of tile `tqi t`.
  Head g of the point, at row r of its tile, is the softmax-weighted sum `headRow` of four things the point computed
  from the blocks it loaded: row r of its projected queries on the head's 64 columns; the projected key rows and the
  projected value rows on those columns, computed by the first point of the point's (batch, head group) from that
  point's blocks; and row r of its mask words. Each is the specification's:

  * a projection over a block-diagonal weight array kron(identity 8, Wᵀ) and a bias repeated eight times is, on the
    64 columns of head g, the head's linear layer x ↦ x Wᵀ + b applied to those 64 entries of the input row; the input
    block's entry (0, r, column g · 64 + d) is the argument array's entry (batch, position, feature d of head
    `hd t g`), the position being `qpos t r` for the queries and the key's own number for keys and values, and the
    group's first point has the batch and the columns of the point itself;
  * the mask words pass through a shape cast of a shape to itself, and row r of the point's mask block is row
    `qpos t r` of the mask argument with its two unit axes dropped.
-/
import proofs.«422591_j53541062312519_3_alg».proof.Proof.GridPoint
import proofs.«422591_j53541062312519_3_alg».proof.Proof.BlockReads
import proofs.«422591_j53541062312519_3_alg».proof.Proof.ProjLayer
import proofs.«422591_j53541062312519_3_alg».proof.Proof.HostSide
import proofs.«422591_j53541062312519_3_alg».proof.Proof.Gen.KernelIdeal.Frame.Runs
import Idealize.ShloMosaic.Lib.Pipeline.Value

set_option maxRecDepth 16384

noncomputable section

namespace Cert.Attn

open Idealize.ShloMosaic Idealize.ShloMosaic.TcCoe Idealize.ShloMosaic.ValueIdx Idealize.SL.Sem
open Cert.KernelIdeal Cert.KernelIdeal.Gen

/-! ## Two congruences -/

/-- A linear layer's value at a row depends only on the row's entries. -/
theorem point_proj_congr (W : Fin 64 → Fin 64 → EReal) (bb : Fin 64 → EReal) {x y : Fin 64 → EReal} (h : ∀ d, x d = y d)
    (e : Fin 64) : proj W bb x e = proj W bb y e := by
  rw [funext h]

/-- A head's output depends only on the projected query row, the projected key and value rows and the mask row. -/
theorem point_headRow_congr {q q' : Fin 64 → EReal} {kp kp' vp vp' : Fin 2048 → Fin 64 → EReal} {mr mr' : Fin 2048 → BitVec 32}
    (hq : q = q') (hk : kp = kp') (hv : vp = vp') (hm : mr = mr') (e : Fin 64) :
    headRow q kp vp mr e = headRow q' kp' vp' mr' e := by
  rw [hq, hk, hv, hm]

/-- The mask words a point compares are the words it loaded: a shape cast of a shape to itself. -/
theorem point_pay5_apply (x : Vec Ideal S512x2048 .i32) (i : S512x2048.Idx) : k0_pay5 (F := Ideal) x i = x i :=
  congrFun (shapeCast_self x shapeCasts_S512x2048_S512x2048) i

/-! ## The four arguments of a point's head, by global coordinates -/

variable (m : (ℓ : Loc nD τ sig) → Buf (Elt Ideal) ℓ) (c : Dev nD)

/-- (a) Row `r` of the point's projected queries, on head `g`'s columns, is the specification's projected query row of
    (the point's batch, the row's position, the head). -/
theorem q_part (t : Fin cfg0.N) (r : Fin 512) (g : Fin 8) (d : Fin 64) :
    k0_pay4 (F := Ideal) (iblk m c 0 t) (iblk m c 4 t) (iblk m c 5 t) (ix2 r (lane g d))
      = qRow (m ((c : Thread nD τ).loc main_arg0) : SAct.Idx → EReal) (m ((c : Thread nD τ).loc main_arg4) : SW.Idx → EReal) (m ((c : Thread nD τ).loc main_arg5) : SB.Idx → EReal) (tb t) (qpos t r) (hd t g) d := by
  refine (qproj_apply (iblk m c 0 t) (iblk m c 4 t) (iblk m c 5 t)
    (fun e d => (m ((c : Thread nD τ).loc main_arg4) : SW.Idx → EReal) (ix2 e d)) (fun e => (m ((c : Thread nD τ).loc main_arg5) : SB.Idx → EReal) (ix1 e))
    (fun k j => (congrFun (wq_tile m c t) (ix2 k j)).trans (Host.wq_blk m c k j))
    (fun j => (congrFun (bq_tile m c t) (ix2 0 j)).trans (Host.bq_blk m c j)) r g d).trans ?_
  unfold qRow
  refine point_proj_congr _ _ (fun d' => ?_) d
  refine (q_blk m c t r (lane g d')).trans ?_
  rw [V_main_arg0, gcol_lane]

/-- (b) Row `k` of the projected keys the point reads — those of its group's first point — on head `g`'s columns is
    the specification's projected key row of (the point's batch, the head). -/
theorem k_part (t : Fin cfg0.N) (g : Fin 8) (k : Fin 2048) (d : Fin 64) :
    k0_pay2 (F := Ideal) (iblk m c 1 (grp t)) (iblk m c 6 (grp t)) (iblk m c 7 (grp t)) (ix2 k (lane g d))
      = kRows (m ((c : Thread nD τ).loc main_arg1) : SAct.Idx → EReal) (m ((c : Thread nD τ).loc main_arg6) : SW.Idx → EReal) (m ((c : Thread nD τ).loc main_arg7) : SB.Idx → EReal) (tb t) (hd t g) k d := by
  refine (kproj_apply (iblk m c 1 (grp t)) (iblk m c 6 (grp t)) (iblk m c 7 (grp t))
    (fun e d => (m ((c : Thread nD τ).loc main_arg6) : SW.Idx → EReal) (ix2 e d)) (fun e => (m ((c : Thread nD τ).loc main_arg7) : SB.Idx → EReal) (ix1 e))
    (fun k j => (congrFun (wk_tile m c (grp t)) (ix2 k j)).trans (Host.wk_blk m c k j))
    (fun j => (congrFun (bk_tile m c (grp t)) (ix2 0 j)).trans (Host.bk_blk m c j)) k g d).trans ?_
  unfold kRows
  refine point_proj_congr _ _ (fun d' => ?_) d
  refine (k_blk m c (grp t) k (lane g d')).trans ?_
  rw [V_main_arg1, tb_grp, gcol_grp, gcol_lane]

/-- (c) Likewise the projected value rows. -/
theorem v_part (t : Fin cfg0.N) (g : Fin 8) (k : Fin 2048) (d : Fin 64) :
    k0_pay3 (F := Ideal) (iblk m c 2 (grp t)) (iblk m c 8 (grp t)) (iblk m c 9 (grp t)) (ix2 k (lane g d))
      = vRows (m ((c : Thread nD τ).loc main_arg2) : SAct.Idx → EReal) (m ((c : Thread nD τ).loc main_arg8) : SW.Idx → EReal) (m ((c : Thread nD τ).loc main_arg9) : SB.Idx → EReal) (tb t) (hd t g) k d := by
  refine (vproj_apply (iblk m c 2 (grp t)) (iblk m c 8 (grp t)) (iblk m c 9 (grp t))
    (fun e d => (m ((c : Thread nD τ).loc main_arg8) : SW.Idx → EReal) (ix2 e d)) (fun e => (m ((c : Thread nD τ).loc main_arg9) : SB.Idx → EReal) (ix1 e))
    (fun k j => (congrFun (wv_tile m c (grp t)) (ix2 k j)).trans (Host.wv_blk m c k j))
    (fun j => (congrFun (bv_tile m c (grp t)) (ix2 0 j)).trans (Host.bv_blk m c j)) k g d).trans ?_
  unfold vRows
  refine point_proj_congr _ _ (fun d' => ?_) d
  refine (v_blk m c (grp t) k (lane g d')).trans ?_
  rw [V_main_arg2, tb_grp, gcol_grp, gcol_lane]

/-- (d) The mask word the point compares for (row `r`, key `k`) is the mask argument's word at (0, 0, the row's
    position, `k`). -/
theorem m_part (t : Fin cfg0.N) (r : Fin 512) (k : Fin 2048) :
    k0_pay5 (F := Ideal) (iblk m c 3 t) (ix2 r k) = (m ((c : Thread nD τ).loc main_arg3) : SMask.Idx → BitVec 32) (ix4 0 0 (qpos t r) k) :=
  (point_pay5_apply (iblk m c 3 t) (ix2 r k)).trans ((mask_tile m c t r k).trans (Host.mask_blk m c (qpos t r) k))

/-! ## One point's head -/

/-- Head `g` of grid point `t` at query row `r`, computed from what the point loaded, is the specification's attention
    at (the point's batch, the row's position, the head). -/
theorem point_value (t : Fin cfg0.N) (r : Fin 512) (g : Fin 8) (e : Fin 64) :
    headRow (fun d => k0_pay4 (F := Ideal) (iblk m c 0 t) (iblk m c 4 t) (iblk m c 5 t) (ix2 r (lane g d)))
            (fun k d => k0_pay2 (F := Ideal) (iblk m c 1 (grp t)) (iblk m c 6 (grp t)) (iblk m c 7 (grp t)) (ix2 k (lane g d)))
            (fun k d => k0_pay3 (F := Ideal) (iblk m c 2 (grp t)) (iblk m c 8 (grp t)) (iblk m c 9 (grp t)) (ix2 k (lane g d)))
            (fun k => k0_pay5 (F := Ideal) (iblk m c 3 t) (ix2 r k)) e
      = attnAt (m ((c : Thread nD τ).loc main_arg0) : SAct.Idx → EReal) (m ((c : Thread nD τ).loc main_arg1) : SAct.Idx → EReal) (m ((c : Thread nD τ).loc main_arg2) : SAct.Idx → EReal) (m ((c : Thread nD τ).loc main_arg3) : SMask.Idx → BitVec 32)
               (m ((c : Thread nD τ).loc main_arg4) : SW.Idx → EReal) (m ((c : Thread nD τ).loc main_arg5) : SB.Idx → EReal) (m ((c : Thread nD τ).loc main_arg6) : SW.Idx → EReal) (m ((c : Thread nD τ).loc main_arg7) : SB.Idx → EReal) (m ((c : Thread nD τ).loc main_arg8) : SW.Idx → EReal) (m ((c : Thread nD τ).loc main_arg9) : SB.Idx → EReal)
               (tb t) (qpos t r) (hd t g) e := by
  unfold attnAt
  exact point_headRow_congr (funext fun d => q_part m c t r g d) (funext fun k => funext fun d => k_part m c t g k d)
    (funext fun k => funext fun d => v_part m c t g k d) (funext fun k => m_part m c t r k) e

end Cert.Attn

end
-- ==== Proof.TileCover.lean ====
/-
  The sixteen tiles the kernel writes back cover the result array.

  Every grid point writes its block of the output window back. The block of point `t` is the box of the result array of
  batch `t / 8`, positions `(t % 4) · 512` to `(t % 4) · 512 + 511` and embedding columns `(t / 4 % 2) · 512` to
  `(t / 4 % 2) · 512 + 511`. An index (b, s, j) of the array therefore lies in the block of the point
  `b · 8 + (j / 512) · 4 + s / 512`: that number is below sixteen, its batch is `b`, its query tile `s / 512` and its
  head group `j / 512`.
-/
import proofs.«422591_j53541062312519_3_alg».proof.Proof.BlockReads
import proofs.«422591_j53541062312519_3_alg».proof.Proof.Gen.KernelIdeal.Frame
import proofs.«422591_j53541062312519_3_alg».proof.Proof.Gen.KernelIdeal.Points
import Idealize.ShloMosaic.Lib.Pipeline.Value

noncomputable section

namespace Cert.Attn

open Idealize.ShloMosaic Idealize.ShloMosaic.TcCoe Idealize.SL.Sem Cert.KernelIdeal Cert.KernelIdeal.Gen
open Idealize.ShloMosaic.ValueIdx

/-- An index of the result array is in point `t`'s output block iff, on every axis, its coordinate is in the block's
    range: from the block index times the block's extent, for the block's extent. -/
theorem out_mem (t : Fin cfg0.N) (i : S2x2048x1024.Idx) :
    i ∈ ((cfg0.win 10).blk t).view.set ↔ ∀ a : Fin 3, win0_10.index t a * S1x512x512.size a ≤ (i a).val
      ∧ (i a).val < win0_10.index t a * S1x512x512.size a + S1x512x512.size a := by
  show i ∈ ((View.whole main_v25).slice (win0_10.rect t)).set ↔ _
  rw [View.set_slice_whole, Rect.mem_set_unit]
  exact Iff.rfl

/-- EVERY INDEX OF THE RESULT ARRAY IS IN SOME WRITTEN-BACK BLOCK: index (b, s, j) in that of the point
    `b · 8 + (j / 512) · 4 + s / 512`. -/
theorem out_cover (i : S2x2048x1024.Idx) :
    ∃ t : Fin cfg0.N, (cfg0.win 10).flush t = true ∧ i ∈ ((cfg0.win 10).blk t).view.set := by
  have h0 : (i 0).val < 2 := (i 0).isLt
  have h1 : (i 1).val < 2048 := (i 1).isLt
  have h2 : (i 2).val < 1024 := (i 2).isLt
  obtain ⟨t, tv⟩ : ∃ t : Fin cfg0.N, t.val = (i 0).val * 8 + (i 2).val / 512 * 4 + (i 1).val / 512 :=
    ⟨⟨(i 0).val * 8 + (i 2).val / 512 * 4 + (i 1).val / 512,
      lt_of_lt_of_eq (by omega : (i 0).val * 8 + (i 2).val / 512 * 4 + (i 1).val / 512 < 16) nPoints.symm⟩, rfl⟩
  refine ⟨t, flush0_10 t, ?_⟩
  obtain ⟨e0, e1, e2⟩ := idx_out t
  rw [out_mem]
  intro a
  match a with
  | ⟨0, _⟩ =>
    show win0_10.index t (0 : Fin 3) * 1 ≤ (i 0).val ∧ (i 0).val < win0_10.index t (0 : Fin 3) * 1 + 1
    omega
  | ⟨1, _⟩ =>
    show win0_10.index t (1 : Fin 3) * 512 ≤ (i 1).val ∧ (i 1).val < win0_10.index t (1 : Fin 3) * 512 + 512
    omega
  | ⟨2, _⟩ =>
    show win0_10.index t (2 : Fin 3) * 512 ≤ (i 2).val ∧ (i 2).val < win0_10.index t (2 : Fin 3) * 512 + 512
    omega

end Cert.Attn

end
-- ==== Proof.KernelValue.lean ====
/-
  The attention kernel's result array, as one function of its arguments.

  Every grid point writes back one tile of the result: 512 query positions by the 512 embedding columns of its head
  group. Entry (r, g · 64 + e) of the tile is head g's attention output for query row r, computed from the tile's
  projected queries, its mask words and the projected keys and values the head group's first point left in the scratch
  arrays; by the block reads, the block-diagonal projection and the host side's block-diagonal weights this is the
  specification's attention at (batch, query position, head, feature). The sixteen tiles cover the array, so the array
  ends at the specification's function of the arguments.
-/
import proofs.«422591_j53541062312519_3_alg».proof.Proof.Gen.KernelIdeal.Value
import proofs.«422591_j53541062312519_3_alg».proof.Proof.ScratchCarry
import proofs.«422591_j53541062312519_3_alg».proof.Proof.TileValue
import proofs.«422591_j53541062312519_3_alg».proof.Proof.PointValue
import proofs.«422591_j53541062312519_3_alg».proof.Proof.BlockReads
import proofs.«422591_j53541062312519_3_alg».proof.Proof.GridPoint
import proofs.«422591_j53541062312519_3_alg».proof.Proof.TileCover
import Idealize.ShloMosaic.Lib.Pipeline.Value
import Idealize.ShloMosaic.Lib.ValueIdx

noncomputable section

namespace Cert.Attn

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The specification's result array of the arguments as launched on core `c`. -/
abbrev spec (c : Dev nD) : S2x2048x1024.Idx → EReal :=
  attnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Every column of a head group is a feature of one of its eight heads. -/
theorem exists_lane (j : Fin 512) : ∃ (g : Fin 8) (e : Fin 64), j = lane g e :=
  ⟨⟨j.val / 64, by have := j.isLt; omega⟩, ⟨j.val % 64, Nat.mod_lt _ (by norm_num)⟩,
    Fin.ext (by show j.val = j.val / 64 * 64 + j.val % 64; omega)⟩

/-- What grid point `t` writes back is its tile of the specification's result. -/
theorem flushed_eq (c : Dev nD) (t : Fin cfg0.N) :
    (dats m 0 c).flushed 10 t = ((cfg0.win 10).blk t).view.read (Elt Ideal) (spec m c) := by
  rw [Cert.KernelIdeal.Value.flushed10]
  funext y
  obtain ⟨u, r, j, rfl⟩ : ∃ (u : Fin 1) (r : Fin 512) (j : Fin 512), y = ix3 u r j := ⟨y 0, y 1, y 2, eq_ix3 y⟩
  obtain rfl : u = 0 := Subsingleton.elim _ _
  obtain ⟨g, e, rfl⟩ := exists_lane j
  show (outsAt0 m c t.val t.isLt).1 (ix3 0 r (lane g e)) = spec m c (((cfg0.win 10).blk t).view.emb (ix3 0 r (lane g e)))
  rw [out_emb, gcol_lane, out_eq, tile_apply]
  unfold tileHead
  rw [point_value]
  exact (attnOut_apply _ _ _ _ _ _ _ _ _ _ _ _ _ _).symm

/-- The sixteen tiles cover the array, so after the run it is the specification's result. -/
theorem final (c : Dev nD) : (dats m 0 c).arrAt 10 cfg0.N = spec m c :=
  (dats m 0 c).arrAt_eq_of_cover 10 (spec m c) (fun t _ => flushed_eq m c t) out_cover

/-- The kernel program's run: every weakly fair execution terminates with the result array at the specification's
    attention of the arguments, the arguments unchanged. -/
theorem run : θ_run defs (onTc (τ := τ) (main (F := Ideal))) ⟨m, fun _ => 0, ρ⟩ fun r => ∀ c : Dev nD,
      r.2.mem ((c : Thread nD τ).loc main_v25) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.Attn

end
-- ==== Proof.lean ====
/-
  A multi-head attention kernel against its plain reference, over the extended reals.

  The kernel tiles the computation over (batch, group of eight heads, tile of 512 query positions). It applies the three
  shared 64 × 64 linear layers to eight heads at once by multiplying with a block-diagonal 512 × 512 matrix (the Kronecker
  product of the 8 × 8 identity with the transposed weight, built before the kernel is launched) and a bias tiled eight
  times; it computes a head group's projected keys and values once, at the group's first query tile, keeps them in two
  scratch arrays for the group's other three tiles, and for each head takes the masked, scaled scores of the tile's
  queries against all keys, their softmax along the keys and the weighted sum of the values. The reference reshapes the
  embedding axis into sixteen heads and does the same with whole-array operations.

  Over the extended reals both compute, at (batch b, position s, head h, feature e),

      ∑ₖ softmaxₖ( mask[s, k] = 0 ? -1e20 : (q · kₖ) / 8 ) · vₖ[e],     q = x_q Wqᵀ + bq, kₖ = x_k Wkᵀ + bk, vₖ = x_v Wvᵀ + bv

  on the 64 features of head h: a block-diagonal product is the per-head product because a zero block contributes
  zeros to the sum (in the extended reals 0 · x = 0 for every x), the kernel's scale 1/8 is the reference's division by 8,
  a change of float format is the identity, and both sides take the row maximum from minus infinity and the row sum from
  zero. The modules: Attention (the specification), RefValue (the reference's result is the specification's),
  HeadDef / HeadValue / PairStores / TileValue (one tile's stores, read at an index), ProjLayer and HostSide (the
  block-diagonal projection), BlockReads / GridPoint / TileCover (the tiles by global coordinates), Pieces / ScratchCarry
  (what a grid point leaves, and the scratch arrays carried across a head group), PointValue and KernelValue (the
  kernel's result array is the specification's).
-/
import proofs.«422591_j53541062312519_3_alg».proof.Defs
import proofs.«422591_j53541062312519_3_alg».proof.Proof.Gen.Kernel
import proofs.«422591_j53541062312519_3_alg».proof.Proof.Gen.Kernel.Skeleton
import proofs.«422591_j53541062312519_3_alg».proof.Proof.Gen.Kernel.Launch
import proofs.«422591_j53541062312519_3_alg».proof.Proof.Gen.Kernel.Points
import proofs.«422591_j53541062312519_3_alg».proof.Proof.Gen.Kernel.Frame
import proofs.«422591_j53541062312519_3_alg».proof.Proof.Gen.KernelIdeal
import proofs.«422591_j53541062312519_3_alg».proof.Proof.Gen.KernelIdeal.Skeleton
import proofs.«422591_j53541062312519_3_alg».proof.Proof.Gen.KernelIdeal.Launch
import proofs.«422591_j53541062312519_3_alg».proof.Proof.Gen.KernelIdeal.Points
import proofs.«422591_j53541062312519_3_alg».proof.Proof.Gen.KernelIdeal.Frame
import proofs.«422591_j53541062312519_3_alg».proof.Proof.Gen.ReferenceIdeal
import proofs.«422591_j53541062312519_3_alg».proof.Proof.Gen.Pre_finite_inputs
import proofs.«422591_j53541062312519_3_alg».proof.Proof.Gen.KernelIdeal.Value
import proofs.«422591_j53541062312519_3_alg».proof.Proof.Gen.ReferenceIdeal.Run
import proofs.«422591_j53541062312519_3_alg».proof.Proof.Gen.ReferenceIdeal.Read
import proofs.«422591_j53541062312519_3_alg».proof.Proof.RefValue
import proofs.«422591_j53541062312519_3_alg».proof.Proof.KernelValue
import Idealize.ShloMosaic.Adequacy
import Idealize.ShloMosaic.Init

noncomputable section

namespace Cert.Proof

open Idealize.ShloMosaic Idealize.SL.Sem Cert.Kernel

/-- The two idealized programs, run from memories that agree on the arguments, both end with the result array at the
    specification's attention of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Attn.spec m c, Cert.Attn.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.Attn.Ref.res_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
